-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10 : Shape := ⟨2, ![4096, 10]⟩
abbrev S50000x128 : Shape := ⟨2, ![50000, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel

variable [Facts]

def fn {F : FTy → Type} [FloatOps F] (main_arg0 : IVec S4096x10 32) (main_arg1 : FVec F S50000x128 .f32) (main_arg2 : FVec F S50000x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  main_v8
-- ==== Kernel.lean ====
abbrev S4096x10 : Shape := ⟨2, ![4096, 10]⟩
abbrev S50000x128 : Shape := ⟨2, ![50000, 128]⟩
abbrev S_ : Shape := ⟨0, ![]⟩
abbrev S4096x10x1 : Shape := ⟨3, ![4096, 10, 1]⟩
abbrev S4096x10x128 : Shape := ⟨3, ![4096, 10, 128]⟩
abbrev S4096x128 : Shape := ⟨2, ![4096, 128]⟩
abbrev S50176x128 : Shape := ⟨2, ![50176, 128]⟩
abbrev S4096x1 : Shape := ⟨2, ![4096, 1]⟩
abbrev S512x128 : Shape := ⟨2, ![512, 128]⟩
abbrev S128x512 : Shape := ⟨2, ![128, 512]⟩
abbrev S4096x512 : Shape := ⟨2, ![4096, 512]⟩
abbrev S4096 : Shape := ⟨1, ![4096]⟩
abbrev S4096x50176 : Shape := ⟨2, ![4096, 50176]⟩
abbrev S4096x50000 : Shape := ⟨2, ![4096, 50000]⟩

abbrev nBuf : Space → Nat
  | .hbm => 23
  | .vmem => 12
  | .smem => 0
  | _ => 0

abbrev bufTy : (tb : Table) → Fin (tcTables nBuf tb) → BufTy
  | .hbm, ⟨0, _⟩ => ⟨S4096x10, .i32⟩
  | .hbm, ⟨1, _⟩ => ⟨S50000x128, .f32⟩
  | .hbm, ⟨2, _⟩ => ⟨S50000x128, .f32⟩
  | .hbm, ⟨3, _⟩ => ⟨S_, .i32⟩
  | .hbm, ⟨4, _⟩ => ⟨S4096x10, .i32⟩
  | .hbm, ⟨5, _⟩ => ⟨S4096x10, .i1⟩
  | .hbm, ⟨6, _⟩ => ⟨S_, .i32⟩
  | .hbm, ⟨7, _⟩ => ⟨S4096x10, .i32⟩
  | .hbm, ⟨8, _⟩ => ⟨S4096x10, .i32⟩
  | .hbm, ⟨9, _⟩ => ⟨S4096x10, .i32⟩
  | .hbm, ⟨10, _⟩ => ⟨S4096x10x1, .i32⟩
  | .hbm, ⟨11, _⟩ => ⟨S4096x10x128, .f32⟩
  | .hbm, ⟨12, _⟩ => ⟨S_, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S_, .i32⟩
  | .hbm, ⟨18, _⟩ => ⟨S_, .f32⟩
  | .hbm, ⟨19, _⟩ => ⟨S50176x128, .f32⟩
  | .hbm, ⟨20, _⟩ => ⟨S4096x1, .f32⟩
  | .hbm, ⟨21, _⟩ => ⟨S4096x50176, .f32⟩
  | .hbm, ⟨22, _⟩ => ⟨S4096x50000, .f32⟩
  | .local _ .vmem, ⟨0, _⟩ => ⟨S4096x128, .f32⟩
  | .local _ .vmem, ⟨1, _⟩ => ⟨S512x128, .f32⟩
  | .local _ .vmem, ⟨2, _⟩ => ⟨S512x128, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | .local _ .vmem, ⟨6, _⟩ => ⟨S4096x128, .f32⟩
  | .local _ .vmem, ⟨7, _⟩ => ⟨S512x128, .f32⟩
  | .local _ .vmem, ⟨8, _⟩ => ⟨S512x128, .f32⟩
  | .local _ .vmem, ⟨9, _⟩ => ⟨S4096x1, .f32⟩
  | .local _ .vmem, ⟨10, _⟩ => ⟨S4096x512, .f32⟩
  | .local _ .vmem, ⟨11, _⟩ => ⟨S4096x512, .f32⟩
  | _, _ => ⟨S4096x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v40 : BitVec 1 := Scalar.cmpi .eq arg0 c97_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S4096x10 : S_.BroadcastsInDim S4096x10 (![] : Fin 0 → Fin S4096x10.rank)
  bcast_S4096x10_S4096x10x1_0_1 : S4096x10.BroadcastsInDim S4096x10x1 (![0, 1] : Fin 2 → Fin S4096x10x1.rank)
  reducesTo_S4096x10x128_S4096x128_d1 : S4096x10x128.ReducesTo [1] S4096x128
  h_S_ : 0 < S_.numel
  bcast_S_S4096x128 : S_.BroadcastsInDim S4096x128 (![] : Fin 0 → Fin S4096x128.rank)
  pads_S50000x128_S50176x128_01760_000 : S50000x128.Pads (![0, 0] : Fin 2 → Nat) ![176, 0] ![0, 0] S50176x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S4096x512_d1_w32 : S4096x512.Iotas .tc 32 [1]
  reduces_S4096x512_S4096 : S4096x512.Reduces [1] S4096
  shapeCasts_S4096_S4096x1 : S4096.ShapeCasts S4096x1
  broadcasts_S4096x1_S4096x512 : S4096x1.Broadcasts S4096x512
  inb_S4096x512_S4096x512_0_0 : ∀ a, (![0, 0] : Fin 2 → Nat) a + S4096x512.size a ≤ S4096x512.size a
  h_S4096x512 : 0 < S4096x512.numel
  slices_S4096x50176_S4096x50000_0_0 : S4096x50176.Slices ![0, 0] S4096x50000
  gather_S50000x128_S4096x10x1_S4096x10x128_2_0_n_n_0_2_1128_wf : GatherDims.WF S50000x128 S4096x10x1 S4096x10x128 [2] [0] [] [0] [] 2 ![1, 128]
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S50176x128.size a
  hwx0_1 : ∀ i : grid0.Coords, EltTy.bits .f32 = 32 ∨ (Rect.block (s := S50176x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .f32 = 32 ∨ (Rect.block (s := S4096x1) S4096x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S50176x128.size a
  hwx1_1 : ∀ i : grid1.Coords, EltTy.bits .f32 = 32 ∨ (Rect.block (s := S50176x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .f32 = 32 ∨ (Rect.block (s := S4096x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x50176.size a
  hwx1_3 : ∀ i : grid1.Coords, EltTy.bits .f32 = 32 ∨ (Rect.block (s := S4096x50176) S4096x512.size (cc1_transform_3 i) (hinb1_3 i)).WholeWords (EltTy.packing .f32)

variable [Facts₀]

def gather_S50000x128_S4096x10x1_S4096x10x128_2_0_n_n_0_2_1128 : GatherDims S50000x128 S4096x10x1 S4096x10x128 where
  offsetDims := [2]
  collapsedSliceDims := [0]
  operandBatchingDims := []
  startIndicesBatchingDims := []
  startIndexMap := [0]
  indexVectorDim := 2
  sliceSizes := ![1, 128]
  wf := gather_S50000x128_S4096x10x1_S4096x10x128_2_0_n_n_0_2_1128_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_v9) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x10 : Shape := ⟨2, ![4096, 10]⟩
abbrev S50000x128 : Shape := ⟨2, ![50000, 128]⟩
abbrev S_ : Shape := ⟨0, ![]⟩
abbrev S4096x10x1 : Shape := ⟨3, ![4096, 10, 1]⟩
abbrev S4096x10x128 : Shape := ⟨3, ![4096, 10, 128]⟩
abbrev S4096x128 : Shape := ⟨2, ![4096, 128]⟩
abbrev S128x50000 : Shape := ⟨2, ![128, 50000]⟩
abbrev S4096x50000 : Shape := ⟨2, ![4096, 50000]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x10, .i32⟩
  | .hbm, ⟨1, _⟩ => ⟨S50000x128, .f32⟩
  | .hbm, ⟨2, _⟩ => ⟨S50000x128, .f32⟩
  | .hbm, ⟨3, _⟩ => ⟨S_, .i32⟩
  | .hbm, ⟨4, _⟩ => ⟨S4096x10, .i32⟩
  | .hbm, ⟨5, _⟩ => ⟨S4096x10, .i1⟩
  | .hbm, ⟨6, _⟩ => ⟨S_, .i32⟩
  | .hbm, ⟨7, _⟩ => ⟨S4096x10, .i32⟩
  | .hbm, ⟨8, _⟩ => ⟨S4096x10, .i32⟩
  | .hbm, ⟨9, _⟩ => ⟨S4096x10, .i32⟩
  | .hbm, ⟨10, _⟩ => ⟨S4096x10x1, .i32⟩
  | .hbm, ⟨11, _⟩ => ⟨S4096x10x128, .f32⟩
  | .hbm, ⟨12, _⟩ => ⟨S_, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S128x50000, .f32⟩
  | .hbm, ⟨18, _⟩ => ⟨S4096x50000, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S4096x50000, .f32⟩
  | .hbm, ⟨26, _⟩ => ⟨S4096x50000, .f32⟩
  | .hbm, ⟨27, _⟩ => ⟨S4096x50000, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x1, .f32⟩
  | .hbm, ⟨32, _⟩ => ⟨S4096x50000, .f32⟩
  | .hbm, ⟨33, _⟩ => ⟨S4096x50000, .f32⟩
  | _, _ => ⟨S4096x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S_S4096x10 : S_.BroadcastsInDim S4096x10 (![] : Fin 0 → Fin S4096x10.rank)
  bcast_S4096x10_S4096x10x1_0_1 : S4096x10.BroadcastsInDim S4096x10x1 (![0, 1] : Fin 2 → Fin S4096x10x1.rank)
  reducesTo_S4096x10x128_S4096x128_d1 : S4096x10x128.ReducesTo [1] S4096x128
  h_S_ : 0 < S_.numel
  bcast_S_S4096x128 : S_.BroadcastsInDim S4096x128 (![] : Fin 0 → Fin S4096x128.rank)
  transposes_S50000x128_S128x50000_1_0 : S50000x128.Transposes [1, 0] S128x50000
  reducesTo_S4096x50000_S4096_d1 : S4096x50000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50000_0_1 : S4096x1.BroadcastsInDim S4096x50000 (![0, 1] : Fin 2 → Fin S4096x50000.rank)
  gather_S50000x128_S4096x10x1_S4096x10x128_2_0_n_n_0_2_1128_wf : GatherDims.WF S50000x128 S4096x10x1 S4096x10x128 [2] [0] [] [0] [] 2 ![1, 128]
  dot_S4096x128_S128x50000_S4096x50000_1_0_0_1_n_n_wf : DotDims.WF S4096x128 S128x50000 S4096x50000 [1] [0] [0] [1] [] []

variable [Facts₀]

def gather_S50000x128_S4096x10x1_S4096x10x128_2_0_n_n_0_2_1128 : GatherDims S50000x128 S4096x10x1 S4096x10x128 where
  offsetDims := [2]
  collapsedSliceDims := [0]
  operandBatchingDims := []
  startIndicesBatchingDims := []
  startIndexMap := [0]
  indexVectorDim := 2
  sliceSizes := ![1, 128]
  wf := gather_S50000x128_S4096x10x1_S4096x10x128_2_0_n_n_0_2_1128_wf
def dot_S4096x128_S128x50000_S4096x50000_1_0_0_1_n_n : DotDims S4096x128 S128x50000 S4096x50000 where
  lhsContracting := [1]
  rhsContracting := [0]
  lhsNonContracting := [0]
  rhsNonContracting := [1]
  lhsBatch := []
  rhsBatch := []
  wf := dot_S4096x128_S128x50000_S4096x50000_1_0_0_1_n_n_wf

class Facts : Prop extends Facts₀ where

variable [Facts]
-- ==== Proof.K.Shared.lean ====
import proofs.«154023_j17042430230825_1_alg».proof.Proof.Gen.Kernel.Launch
import proofs.«154023_j17042430230825_1_alg».proof.Proof.Gen.Kernel.Skeleton
import proofs.«154023_j17042430230825_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks at the entry contents -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 0: the body's two conditions, decided over the grid -/

/-- The first conditional's test (the reset of the two running stores): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- The second conditional's test (the result is stored): the grid coordinate is the last, 97. -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## Region 0: the staging and scratch memrefs -/

abbrev VO0_2 : View sig .tc .vmem S4096x1 .f32 := (Memref.whole cc0_stg2_0 : Memref sig .tc .vmem S4096x1 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .f32 := win0_2.stage (cfg0.slots t 2)
abbrev hs0_2 (t : Fin cfg0.N) : (ms0_2 t).IsWhole := hstage0_2 ((cfg0.slots t 2).cast nbuf0_2)
/-- The two scratch operands: the running maximum and the running sum. -/
abbrev scM0_0 : Memref sig .tc .vmem S4096x1 .f32 := Memref.whole cc0_scratch0
abbrev scM0_1 : Memref sig .tc .vmem S4096x1 .f32 := Memref.whole cc0_scratch1
abbrev VS0_0 : View sig .tc .vmem S4096x1 .f32 := scM0_0.view
abbrev VS0_1 : View sig .tc .vmem S4096x1 .f32 := scM0_1.view

/-- The region's scoped rest, with the two scratch operands split off as memrefs owned at some contents, the
    other scoped buffers (the second region's staging buffers) left as they come. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, scM0_1, owns_whole]; try rfl

end Cert.Kernel.Fr

end
-- ==== Proof.K.RunA.lean ====
import proofs.«154023_j17042430230825_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first grid point (the reset of the two running stores taken, the result not stored):
    on whole memrefs — the two inputs at their contents, the result window at contents handed back untouched,
    the running maximum and the running sum at anything — the body runs to the continuation holding the inputs
    and the result window as they were and each running store with its pieces written. The pieces are the
    witness the run finds. -/
noncomputable def kernelRun0_A (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) :
    Σ' (L2 : List (View.Piece (Elt F) S4096x1 .f32)) (LS0 : List (View.Piece (Elt F) S4096x1 .f32)), { LS1 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.K.RunB.lean ====
import proofs.«154023_j17042430230825_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle grid point (no reset, the result not stored): on whole memrefs — the two inputs
    at their contents, the result window at contents handed back untouched, the running maximum and the running
    sum at what the point before left — the body runs to the continuation holding the inputs and the result
    window as they were and each running store with its pieces written. The pieces are the witness the run finds. -/
noncomputable def kernelRun0_B (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) :
    Σ' (L2 : List (View.Piece (Elt F) S4096x1 .f32)) (LS0 : List (View.Piece (Elt F) S4096x1 .f32)), { LS1 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.K.RunC.lean ====
import proofs.«154023_j17042430230825_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last grid point (no reset, the result stored): on whole memrefs — the two inputs at
    their contents, the result window's buffer at anything, the running maximum and the running sum at what the
    point before left — the body runs to the continuation holding the inputs as they were, the result window's
    buffer stored whole and each running store with its pieces written. The pieces are the witness the run finds. -/
noncomputable def kernelRun0_C (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) :
    Σ' (L2 : List (View.Piece (Elt F) S4096x1 .f32)) (LS0 : List (View.Piece (Elt F) S4096x1 .f32)), { LS1 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Fr

end
-- ==== Proof.K.Region0.lean ====
import proofs.«154023_j17042430230825_1_alg».proof.Proof.K.RunA
import proofs.«154023_j17042430230825_1_alg».proof.Proof.K.RunB
import proofs.«154023_j17042430230825_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: custom_call 0, `cc0__lse_kernel` (pipeline 0), at the entry contents `V`: the frame -/

/-! ## Region 0, the first grid point (the two running stores reset, the result not stored): what the body leaves -/

/-- At the first grid point (the two running stores reset, the result not stored) the body stores nothing into the result window (the window is idle there and not
    written back): no pieces, a placeholder (the empty list written over unspecified contents and read back) that
    nothing consults. -/
def out0_A_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VO0_2.read (Elt F) (VO0_2.writes (Elt F) VO0_2.junk (kernelRun0_A c i arg1 harg1 arg2 harg2 arg3 harg3 arg4 harg4 arg5 harg5 hc0 hc1 x0 x1).1)

/-- The pieces stored into the running maximum at the first grid point (the two running stores reset, the result not stored) cover it: each store is the whole buffer. -/
theorem scover0_A_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) (y : S4096x1.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S4096x1.size (by sl_kernel_rfl) y

/-- What the first grid point (the two running stores reset, the result not stored) leaves in the running maximum: its pieces read back over unspecified contents. -/
def sout0_A_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VS0_0.read (Elt F) (VS0_0.writes (Elt F) VS0_0.junk (kernelRun0_A c i arg1 harg1 arg2 harg2 arg3 harg3 arg4 harg4 arg5 harg5 hc0 hc1 x0 x1).2.1)

/-- The pieces stored into the running sum at the first grid point (the two running stores reset, the result not stored) cover it: each store is the whole buffer. -/
theorem scover0_A_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) (y : S4096x1.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S4096x1.size (by sl_kernel_rfl) y

/-- What the first grid point (the two running stores reset, the result not stored) leaves in the running sum: its pieces read back over unspecified contents. -/
def sout0_A_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VS0_1.read (Elt F) (VS0_1.writes (Elt F) VS0_1.junk (kernelRun0_A c i arg1 harg1 arg2 harg2 arg3 harg3 arg4 harg4 arg5 harg5 hc0 hc1 x0 x1).2.2.1)

/-! ## Region 0, a middle grid point (no reset, the result not stored): what the body leaves -/

/-- At a middle grid point (no reset, the result not stored) the body stores nothing into the result window (the window is idle there and not
    written back): no pieces, a placeholder (the empty list written over unspecified contents and read back) that
    nothing consults. -/
def out0_B_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VO0_2.read (Elt F) (VO0_2.writes (Elt F) VO0_2.junk (kernelRun0_B c i arg1 harg1 arg2 harg2 arg3 harg3 arg4 harg4 arg5 harg5 hc0 hc1 x0 x1 xs0 xs1).1)

/-- The pieces stored into the running maximum at a middle grid point (no reset, the result not stored) cover it: each store is the whole buffer. -/
theorem scover0_B_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) (y : S4096x1.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S4096x1.size (by sl_kernel_rfl) y

/-- What a middle grid point (no reset, the result not stored) leaves in the running maximum: its pieces read back over unspecified contents. -/
def sout0_B_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VS0_0.read (Elt F) (VS0_0.writes (Elt F) VS0_0.junk (kernelRun0_B c i arg1 harg1 arg2 harg2 arg3 harg3 arg4 harg4 arg5 harg5 hc0 hc1 x0 x1 xs0 xs1).2.1)

/-- The pieces stored into the running sum at a middle grid point (no reset, the result not stored) cover it: each store is the whole buffer. -/
theorem scover0_B_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) (y : S4096x1.Idx) :
    ∃ pc ∈ (kernelRun0_B c i arg1 harg1 arg2 harg2 arg3 harg3 arg4 harg4 arg5 harg5 hc0 hc1 x0 x1 xs0 xs1).2.2.1, y ∈ pc.1.set :=
  View.cover_of_tiledL (kernelRun0_B c i arg1 harg1 arg2 harg2 arg3 harg3 arg4 harg4 arg5 harg5 hc0 hc1 x0 x1 xs0 xs1).2.2.1 S4096x1.size (by sl_kernel_rfl) y

/-- What a middle grid point (no reset, the result not stored) leaves in the running sum: its pieces read back over unspecified contents. -/
def sout0_B_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VS0_1.read (Elt F) (VS0_1.writes (Elt F) VS0_1.junk (kernelRun0_B c i arg1 harg1 arg2 harg2 arg3 harg3 arg4 harg4 arg5 harg5 hc0 hc1 x0 x1 xs0 xs1).2.2.1)

/-! ## Region 0, the last grid point (no reset, the result stored): what the body leaves -/

/-- At the last grid point the one store into the result window is the whole block, so its pieces cover it. -/
theorem cover0_C_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S4096x1.size (by sl_kernel_rfl) y

/-- What the last grid point leaves in the result window's staging buffer: its pieces read back over unspecified
    contents (they cover the block, so the contents underneath do not matter). -/
def out0_C_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VO0_2.read (Elt F) (VO0_2.writes (Elt F) VO0_2.junk (kernelRun0_C c i arg1 harg1 arg2 harg2 arg3 harg3 arg4 harg4 arg5 harg5 hc0 hc1 x0 x1 xs0 xs1).1)

/-- The pieces stored into the running maximum at the last grid point (no reset, the result stored) cover it: each store is the whole buffer. -/
theorem scover0_C_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S4096x1.size (by sl_kernel_rfl) y

/-- What the last grid point (no reset, the result stored) leaves in the running maximum: its pieces read back over unspecified contents. -/
def sout0_C_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VS0_0.read (Elt F) (VS0_0.writes (Elt F) VS0_0.junk (kernelRun0_C c i arg1 harg1 arg2 harg2 arg3 harg3 arg4 harg4 arg5 harg5 hc0 hc1 x0 x1 xs0 xs1).2.1)

/-- The pieces stored into the running sum at the last grid point (no reset, the result stored) cover it: each store is the whole buffer. -/
theorem scover0_C_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S4096x1.size (by sl_kernel_rfl) y

/-- What the last grid point (no reset, the result stored) leaves in the running sum: its pieces read back over unspecified contents. -/
def sout0_C_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-! ## Region 0: what the result window's buffer and the two running stores hold after each point -/

/-- THE ACCUMULATION. What the result window's staging buffer, the running maximum and the running sum hold after the
    body at position `n` (a triple, in that order): the case the closed forms select at `n`, run at the point's memrefs
    and input blocks, the two running stores at what this leaves at `n - 1` (nothing touches them between two points).
    An assignment of the two conditions no point meets is no case. -/
def outsAt0 (c : Dev nD) : (n : ℕ) → n < cfg0.N → Vec F S4096x1 .f32 × Vec F S4096x1 .f32 × Vec F S4096x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at the first point: that case's contents. -/
theorem outsAt0_A (c : Dev nD) (t : Fin cfg0.N) (h0 : t.val % 98 = 0) (h1 : ¬t.val % 98 = 97) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: that case's contents, over what the point before left in the two running stores. -/
theorem outsAt0_B (c : Dev nD) (t : Fin cfg0.N) (h0 : ¬t.val % 98 = 0) (h1 : ¬t.val % 98 = 97) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: that case's contents, over what the point before left in the two running stores. -/
theorem outsAt0_C (c : Dev nD) (t : Fin cfg0.N) (h0 : ¬t.val % 98 = 0) (h1 : t.val % 98 = 97) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## Region 0: the invariant -/

/-- The scoped buffers of the region's rest that are neither running store: the second region's six staging buffers,
    each whole at some contents. The region hands them through untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's scoped rest with the six other buffers named as one. -/
theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) :=
  PhiA0_eq c

/-- The region invariant before position `n`: before the first point the scoped rest with every buffer at anything;
    afterwards the scoped rest with the running maximum and the running sum at what the point before left in them
    (`outsAt0`'s second and third components), the six other buffers at anything, and the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the two running stores at that point's contents. -/
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ rest0 c) ∗ (∃ r, prngReg c r)) := rfl

/-- Before a point that is not the first: the two running stores at what the point before left. -/
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ rest0 c) ∗ (∃ r, prngReg c r)) := by
  cases n with
  | zero => exact absurd rfl hz
  | succ n => rfl

/-! ## Region 0: the pipeline's proof data -/

/-- The proof data of pipeline 0 on core `c`: the arrays as the region finds them (`V`); after the body at point `t` each
    input's buffer at its block and the result window's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 0: the body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point
    is in; the invariant hands the body the two running stores at what the point before left (at anything at the first
    point), the six other scoped buffers and the generator register, and takes the running stores back at this point's
    contents (their pieces cover them); the result window's buffer is handed back untouched where it is idle and taken
    at the stored contents at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 98 := lt_of_lt_of_eq t.isLt (show cfg0.N = 98 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq']
        iintro ⟨⟨⟨HS0, HS1, Hr⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact Hr
          iexact Hg
        isplitl [Ho]; · iexact Ho
        isplitl [H0]; · iexact H0
        isplitl [H1]; · iexact H1
        iexists _; iexact H2
      · exfalso; omega
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0 sout0_C_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 0: in and out of the class's invariant -/

/-- What the launch hands the region (the scoped rest, every buffer at anything) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the running stores' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, HS1, Hr⟩, Hg⟩
  isplitl [HS0 HS1 Hr]
  · isplitl [HS0]
    · iexists _; iexact HS0
    isplitl [HS1]
    · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 98 := N_0; omega)

end Cert.Kernel.Fr

end
-- ==== Proof.K.Region1.lean ====
import proofs.«154023_j17042430230825_1_alg».proof.Proof.Gen.Kernel.Launch
import proofs.«154023_j17042430230825_1_alg».proof.Proof.Gen.Kernel.Skeleton
import proofs.«154023_j17042430230825_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: custom_call 1, `cc1__out_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x128 := Rect.unit (s := S4096x128) ![0, 0] S4096x128.size inb_S4096x128_S4096x128_0_0
abbrev r1_1 : Rect S512x128 := Rect.unit (s := S512x128) ![0, 0] S512x128.size inb_S512x128_S512x128_0_0
abbrev r1_2 : Rect S4096x1 := Rect.unit (s := S4096x1) ![0, 0] S4096x1.size inb_S4096x1_S4096x1_0_0
abbrev r1_3 : Rect S4096x512 := Rect.unit (s := S4096x512) ![0, 0] S4096x512.size inb_S4096x512_S4096x512_0_0

/-! ## What the body leaves in the output window's buffer -/

/-- Window 3's staging buffer after the body, from the input windows' blocks: its one store as a piece
    (`View.canon`; the payload is the skeleton's). -/
def out1_3 (x0 : Vec F S4096x128 .f32) (x1 : Vec F S512x128 .f32) (x2 : Vec F S4096x1 .f32) : Vec F S4096x512 .f32 :=
  View.canon [⟨r1_3, k1_pay1 (View.ld x0 r1_0) (View.ld x1 r1_1) (View.ld x2 r1_2)⟩]

/-- The one store is the whole buffer, so it covers it. -/
theorem cover1_3 (p0 : Vec F S4096x512 .f32) (y : S4096x512.Idx) :
    ∃ pc ∈ ([⟨r1_3, p0⟩] : List (View.Piece (Elt F) S4096x512 .f32)), y ∈ pc.1.set :=
  View.cover_of_tiled [⟨r1_3, p0⟩] S4096x512.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs:
    the printed function is its skeleton; the load of the output buffer reads a value nothing uses. -/
theorem sound_kernel1 (c : Dev nD) (E : Set ℕ) (i : grid1.Coords)
    (arg1 : Memref sig .tc .vmem S4096x128 .f32) (harg1 : arg1.IsWhole) (arg2 : Memref sig .tc .vmem S512x128 .f32) (harg2 : arg2.IsWhole)
    (arg3 : Memref sig .tc .vmem S4096x1 .f32) (harg3 : arg3.IsWhole) (arg4 : Memref sig .tc .vmem S4096x512 .f32) (harg4 : arg4.IsWhole)
    (x0 : Vec F S4096x128 .f32) (x1 : Vec F S512x128 .f32) (x2 : Vec F S4096x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
import proofs.«154023_j17042430230825_1_alg».proof.Proof.K.Region0
import proofs.«154023_j17042430230825_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's five segments from the launch to the return

## The buffer contents at each segment boundary -/

/-- Core `c`'s buffers at launch. -/
abbrev W0 : Dev nD → Valuation τ sig (Elt F) := fun c b => (s₀ m ρ).mem ((c : Dev nD), b)
/-- After the first host stretch (the gather, the mean over the context axis). -/
abbrev W1 : Dev nD → Valuation τ sig (Elt F) := fun c => StableHlo.after hostOps0 (W0 m ρ c)
/-- After the second host stretch (the weight matrix padded with zero rows): region 0's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the slice back to the 50000 columns): the final contents. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at its entry contents, left with the region's
    arrays at what the write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V2 m ρ) c); unfold Pipeline.ΦA
    iintro ⟨Hp, -, Hr⟩
    isplitl [Hr]; · iexact Hr
    iexact Hp
  hout c := by
    rw [Pipeline.ownSems0_none]; refine (hout0 (V2 m ρ) c).trans (?_ : Pipeline.ΦA spec0 c ⊢ _); unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what the write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Fr

end
-- ==== Proof.K.Frame.lean ====
import proofs.«154023_j17042430230825_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

abbrev hostOps0_W : List (Ref sig .tc) := [main_c, main_v0, main_v1, main_c_0, main_v2, main_v3, main_v4, main_v5, main_v6, main_cst, main_v7, main_cst_1, main_v8, main_v9, main_c_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps0_1_W : List (Ref sig .tc) := [main_call0_v0, main_v10]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps2_W : List (Ref sig .tc) := [main_v13]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer no host stretch writes and no region stages as an array keeps its launch contents to the end. -/
theorem W5_of_untouched (c : Dev nD) (b : Ref sig .tc) (h0 : b ∉ hostOps0_W) (h1 : b ∉ hostOps0_1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := W3_of_ne m ρ c b ha0
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Fr

end
-- ==== Proof.KI.Shared.lean ====
import proofs.«154023_j17042430230825_1_alg».proof.Proof.Gen.KernelIdeal.Launch
import proofs.«154023_j17042430230825_1_alg».proof.Proof.Gen.KernelIdeal.Skeleton
import proofs.«154023_j17042430230825_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0: the windows' blocks at the entry contents -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 0: the body's two conditions, decided over the grid -/

/-- The first conditional's test (the reset of the two running stores): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- The second conditional's test (the result is stored): the grid coordinate is the last, 97. -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## Region 0: the staging and scratch memrefs -/

abbrev VO0_2 : View sig .tc .vmem S4096x1 .f32 := (Memref.whole cc0_stg2_0 : Memref sig .tc .vmem S4096x1 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .f32 := win0_2.stage (cfg0.slots t 2)
abbrev hs0_2 (t : Fin cfg0.N) : (ms0_2 t).IsWhole := hstage0_2 ((cfg0.slots t 2).cast nbuf0_2)
/-- The two scratch operands: the running maximum and the running sum. -/
abbrev scM0_0 : Memref sig .tc .vmem S4096x1 .f32 := Memref.whole cc0_scratch0
abbrev scM0_1 : Memref sig .tc .vmem S4096x1 .f32 := Memref.whole cc0_scratch1
abbrev VS0_0 : View sig .tc .vmem S4096x1 .f32 := scM0_0.view
abbrev VS0_1 : View sig .tc .vmem S4096x1 .f32 := scM0_1.view

/-- The region's scoped rest, with the two scratch operands split off as memrefs owned at some contents, the
    other scoped buffers (the second region's staging buffers) left as they come. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, scM0_1, owns_whole]; try rfl

end Cert.KernelIdeal.Fr

end
-- ==== Proof.KI.RunA.lean ====
import proofs.«154023_j17042430230825_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's run at the first grid point (the reset of the two running stores taken, the result not stored):
    on whole memrefs — the two inputs at their contents, the result window at contents handed back untouched,
    the running maximum and the running sum at anything — the body runs to the continuation holding the inputs
    and the result window as they were and each running store with its pieces written. The pieces are the
    witness the run finds. -/
noncomputable def kernelRun0_A (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) :
    Σ' (L2 : List (View.Piece (Elt F) S4096x1 .f32)) (LS0 : List (View.Piece (Elt F) S4096x1 .f32)), { LS1 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.RunB.lean ====
import proofs.«154023_j17042430230825_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's run at a middle grid point (no reset, the result not stored): on whole memrefs — the two inputs
    at their contents, the result window at contents handed back untouched, the running maximum and the running
    sum at what the point before left — the body runs to the continuation holding the inputs and the result
    window as they were and each running store with its pieces written. The pieces are the witness the run finds. -/
noncomputable def kernelRun0_B (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) :
    Σ' (L2 : List (View.Piece (Elt F) S4096x1 .f32)) (LS0 : List (View.Piece (Elt F) S4096x1 .f32)), { LS1 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨[], ?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.RunC.lean ====
import proofs.«154023_j17042430230825_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's run at the last grid point (no reset, the result stored): on whole memrefs — the two inputs at
    their contents, the result window's buffer at anything, the running maximum and the running sum at what the
    point before left — the body runs to the continuation holding the inputs as they were, the result window's
    buffer stored whole and each running store with its pieces written. The pieces are the witness the run finds. -/
noncomputable def kernelRun0_C (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) :
    Σ' (L2 : List (View.Piece (Elt F) S4096x1 .f32)) (LS0 : List (View.Piece (Elt F) S4096x1 .f32)), { LS1 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lse_kernel i arg1 harg1 arg2 harg2 arg3 harg3 arg4 harg4 arg5 harg5) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Fr

end
-- ==== Proof.KI.Region0.lean ====
import proofs.«154023_j17042430230825_1_alg».proof.Proof.KI.RunA
import proofs.«154023_j17042430230825_1_alg».proof.Proof.KI.RunB
import proofs.«154023_j17042430230825_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: custom_call 0, `cc0__lse_kernel` (pipeline 0), at the entry contents `V`: the frame -/

/-! ## Region 0, the first grid point (the two running stores reset, the result not stored): what the body leaves -/

/-- At the first grid point (the two running stores reset, the result not stored) the body stores nothing into the result window (the window is idle there and not
    written back): no pieces, a placeholder (the empty list written over unspecified contents and read back) that
    nothing consults. -/
def out0_A_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VO0_2.read (Elt F) (VO0_2.writes (Elt F) VO0_2.junk (kernelRun0_A c i arg1 harg1 arg2 harg2 arg3 harg3 arg4 harg4 arg5 harg5 hc0 hc1 x0 x1).1)

/-- The pieces stored into the running maximum at the first grid point (the two running stores reset, the result not stored) cover it: each store is the whole buffer. -/
theorem scover0_A_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) (y : S4096x1.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S4096x1.size (by sl_kernel_rfl) y

/-- What the first grid point (the two running stores reset, the result not stored) leaves in the running maximum: its pieces read back over unspecified contents. -/
def sout0_A_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VS0_0.read (Elt F) (VS0_0.writes (Elt F) VS0_0.junk (kernelRun0_A c i arg1 harg1 arg2 harg2 arg3 harg3 arg4 harg4 arg5 harg5 hc0 hc1 x0 x1).2.1)

/-- The pieces stored into the running sum at the first grid point (the two running stores reset, the result not stored) cover it: each store is the whole buffer. -/
theorem scover0_A_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) (y : S4096x1.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S4096x1.size (by sl_kernel_rfl) y

/-- What the first grid point (the two running stores reset, the result not stored) leaves in the running sum: its pieces read back over unspecified contents. -/
def sout0_A_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) : Vec F S4096x1 .f32 :=
  VS0_1.read (Elt F) (VS0_1.writes (Elt F) VS0_1.junk (kernelRun0_A c i arg1 harg1 arg2 harg2 arg3 harg3 arg4 harg4 arg5 harg5 hc0 hc1 x0 x1).2.2.1)

/-! ## Region 0, a middle grid point (no reset, the result not stored): what the body leaves -/

/-- At a middle grid point (no reset, the result not stored) the body stores nothing into the result window (the window is idle there and not
    written back): no pieces, a placeholder (the empty list written over unspecified contents and read back) that
    nothing consults. -/
def out0_B_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VO0_2.read (Elt F) (VO0_2.writes (Elt F) VO0_2.junk (kernelRun0_B c i arg1 harg1 arg2 harg2 arg3 harg3 arg4 harg4 arg5 harg5 hc0 hc1 x0 x1 xs0 xs1).1)

/-- The pieces stored into the running maximum at a middle grid point (no reset, the result not stored) cover it: each store is the whole buffer. -/
theorem scover0_B_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) (y : S4096x1.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S4096x1.size (by sl_kernel_rfl) y

/-- What a middle grid point (no reset, the result not stored) leaves in the running maximum: its pieces read back over unspecified contents. -/
def sout0_B_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VS0_0.read (Elt F) (VS0_0.writes (Elt F) VS0_0.junk (kernelRun0_B c i arg1 harg1 arg2 harg2 arg3 harg3 arg4 harg4 arg5 harg5 hc0 hc1 x0 x1 xs0 xs1).2.1)

/-- The pieces stored into the running sum at a middle grid point (no reset, the result not stored) cover it: each store is the whole buffer. -/
theorem scover0_B_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) (y : S4096x1.Idx) :
    ∃ pc ∈ (kernelRun0_B c i arg1 harg1 arg2 harg2 arg3 harg3 arg4 harg4 arg5 harg5 hc0 hc1 x0 x1 xs0 xs1).2.2.1, y ∈ pc.1.set :=
  View.cover_of_tiledL (kernelRun0_B c i arg1 harg1 arg2 harg2 arg3 harg3 arg4 harg4 arg5 harg5 hc0 hc1 x0 x1 xs0 xs1).2.2.1 S4096x1.size (by sl_kernel_rfl) y

/-- What a middle grid point (no reset, the result not stored) leaves in the running sum: its pieces read back over unspecified contents. -/
def sout0_B_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) : Vec F S4096x1 .f32 :=
  VS0_1.read (Elt F) (VS0_1.writes (Elt F) VS0_1.junk (kernelRun0_B c i arg1 harg1 arg2 harg2 arg3 harg3 arg4 harg4 arg5 harg5 hc0 hc1 x0 x1 xs0 xs1).2.2.1)

/-! ## Region 0, the last grid point (no reset, the result stored): what the body leaves -/

/-- At the last grid point the one store into the result window is the whole block, so its pieces cover it. -/
theorem cover0_C_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S4096x1.size (by sl_kernel_rfl) y

/-- What the last grid point leaves in the result window's staging buffer: its pieces read back over unspecified
    contents (they cover the block, so the contents underneath do not matter). -/
def out0_C_2 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VO0_2.read (Elt F) (VO0_2.writes (Elt F) VO0_2.junk (kernelRun0_C c i arg1 harg1 arg2 harg2 arg3 harg3 arg4 harg4 arg5 harg5 hc0 hc1 x0 x1 xs0 xs1).1)

/-- The pieces stored into the running maximum at the last grid point (no reset, the result stored) cover it: each store is the whole buffer. -/
theorem scover0_C_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S4096x1.size (by sl_kernel_rfl) y

/-- What the last grid point (no reset, the result stored) leaves in the running maximum: its pieces read back over unspecified contents. -/
def sout0_C_0 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VS0_0.read (Elt F) (VS0_0.writes (Elt F) VS0_0.junk (kernelRun0_C c i arg1 harg1 arg2 harg2 arg3 harg3 arg4 harg4 arg5 harg5 hc0 hc1 x0 x1 xs0 xs1).2.1)

/-- The pieces stored into the running sum at the last grid point (no reset, the result stored) cover it: each store is the whole buffer. -/
theorem scover0_C_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) (y : S4096x1.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S4096x1.size (by sl_kernel_rfl) y

/-- What the last grid point (no reset, the result stored) leaves in the running sum: its pieces read back over unspecified contents. -/
def sout0_C_1 (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) : Vec F S4096x1 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-! ## Region 0: what the result window's buffer and the two running stores hold after each point -/

/-- THE ACCUMULATION. What the result window's staging buffer, the running maximum and the running sum hold after the
    body at position `n` (a triple, in that order): the case the closed forms select at `n`, run at the point's memrefs
    and input blocks, the two running stores at what this leaves at `n - 1` (nothing touches them between two points).
    An assignment of the two conditions no point meets is no case. -/
def outsAt0 (c : Dev nD) : (n : ℕ) → n < cfg0.N → Vec F S4096x1 .f32 × Vec F S4096x1 .f32 × Vec F S4096x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at the first point: that case's contents. -/
theorem outsAt0_A (c : Dev nD) (t : Fin cfg0.N) (h0 : t.val % 98 = 0) (h1 : ¬t.val % 98 = 97) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: that case's contents, over what the point before left in the two running stores. -/
theorem outsAt0_B (c : Dev nD) (t : Fin cfg0.N) (h0 : ¬t.val % 98 = 0) (h1 : ¬t.val % 98 = 97) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: that case's contents, over what the point before left in the two running stores. -/
theorem outsAt0_C (c : Dev nD) (t : Fin cfg0.N) (h0 : ¬t.val % 98 = 0) (h1 : t.val % 98 = 97) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## Region 0: the invariant -/

/-- The scoped buffers of the region's rest that are neither running store: the second region's six staging buffers,
    each whole at some contents. The region hands them through untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's scoped rest with the six other buffers named as one. -/
theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) :=
  PhiA0_eq c

/-- The region invariant before position `n`: before the first point the scoped rest with every buffer at anything;
    afterwards the scoped rest with the running maximum and the running sum at what the point before left in them
    (`outsAt0`'s second and third components), the six other buffers at anything, and the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the two running stores at that point's contents. -/
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ rest0 c) ∗ (∃ r, prngReg c r)) := rfl

/-- Before a point that is not the first: the two running stores at what the point before left. -/
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ rest0 c) ∗ (∃ r, prngReg c r)) := by
  cases n with
  | zero => exact absurd rfl hz
  | succ n => rfl

/-! ## Region 0: the pipeline's proof data -/

/-- The proof data of pipeline 0 on core `c`: the arrays as the region finds them (`V`); after the body at point `t` each
    input's buffer at its block and the result window's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 0: the body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point
    is in; the invariant hands the body the two running stores at what the point before left (at anything at the first
    point), the six other scoped buffers and the generator register, and takes the running stores back at this point's
    contents (their pieces cover them); the result window's buffer is handed back untouched where it is idle and taken
    at the stored contents at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 98 := lt_of_lt_of_eq t.isLt (show cfg0.N = 98 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq']
        iintro ⟨⟨⟨HS0, HS1, Hr⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact Hr
          iexact Hg
        isplitl [Ho]; · iexact Ho
        isplitl [H0]; · iexact H0
        isplitl [H1]; · iexact H1
        iexists _; iexact H2
      · exfalso; omega
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0 sout0_C_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 0: in and out of the class's invariant -/

/-- What the launch hands the region (the scoped rest, every buffer at anything) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the running stores' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, HS1, Hr⟩, Hg⟩
  isplitl [HS0 HS1 Hr]
  · isplitl [HS0]
    · iexists _; iexact HS0
    isplitl [HS1]
    · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 98 := N_0; omega)

end Cert.KernelIdeal.Fr

end
-- ==== Proof.KI.Region1.lean ====
import proofs.«154023_j17042430230825_1_alg».proof.Proof.Gen.KernelIdeal.Launch
import proofs.«154023_j17042430230825_1_alg».proof.Proof.Gen.KernelIdeal.Skeleton
import proofs.«154023_j17042430230825_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 1: custom_call 1, `cc1__out_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x128 := Rect.unit (s := S4096x128) ![0, 0] S4096x128.size inb_S4096x128_S4096x128_0_0
abbrev r1_1 : Rect S512x128 := Rect.unit (s := S512x128) ![0, 0] S512x128.size inb_S512x128_S512x128_0_0
abbrev r1_2 : Rect S4096x1 := Rect.unit (s := S4096x1) ![0, 0] S4096x1.size inb_S4096x1_S4096x1_0_0
abbrev r1_3 : Rect S4096x512 := Rect.unit (s := S4096x512) ![0, 0] S4096x512.size inb_S4096x512_S4096x512_0_0

/-! ## What the body leaves in the output window's buffer -/

/-- Window 3's staging buffer after the body, from the input windows' blocks: its one store as a piece
    (`View.canon`; the payload is the skeleton's). -/
def out1_3 (x0 : Vec F S4096x128 .f32) (x1 : Vec F S512x128 .f32) (x2 : Vec F S4096x1 .f32) : Vec F S4096x512 .f32 :=
  View.canon [⟨r1_3, k1_pay1 (View.ld x0 r1_0) (View.ld x1 r1_1) (View.ld x2 r1_2)⟩]

/-- The one store is the whole buffer, so it covers it. -/
theorem cover1_3 (p0 : Vec F S4096x512 .f32) (y : S4096x512.Idx) :
    ∃ pc ∈ ([⟨r1_3, p0⟩] : List (View.Piece (Elt F) S4096x512 .f32)), y ∈ pc.1.set :=
  View.cover_of_tiled [⟨r1_3, p0⟩] S4096x512.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs:
    the printed function is its skeleton; the load of the output buffer reads a value nothing uses. -/
theorem sound_kernel1 (c : Dev nD) (E : Set ℕ) (i : grid1.Coords)
    (arg1 : Memref sig .tc .vmem S4096x128 .f32) (harg1 : arg1.IsWhole) (arg2 : Memref sig .tc .vmem S512x128 .f32) (harg2 : arg2.IsWhole)
    (arg3 : Memref sig .tc .vmem S4096x1 .f32) (harg3 : arg3.IsWhole) (arg4 : Memref sig .tc .vmem S4096x512 .f32) (harg4 : arg4.IsWhole)
    (x0 : Vec F S4096x128 .f32) (x1 : Vec F S512x128 .f32) (x2 : Vec F S4096x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
import proofs.«154023_j17042430230825_1_alg».proof.Proof.KI.Region0
import proofs.«154023_j17042430230825_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: @main's five segments from the launch to the return

## The buffer contents at each segment boundary -/

/-- Core `c`'s buffers at launch. -/
abbrev W0 : Dev nD → Valuation τ sig (Elt F) := fun c b => (s₀ m ρ).mem ((c : Dev nD), b)
/-- After the first host stretch (the gather, the mean over the context axis). -/
abbrev W1 : Dev nD → Valuation τ sig (Elt F) := fun c => StableHlo.after hostOps0 (W0 m ρ c)
/-- After the second host stretch (the weight matrix padded with zero rows): region 0's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the slice back to the 50000 columns): the final contents. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at its entry contents, left with the region's
    arrays at what the write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V2 m ρ) c); unfold Pipeline.ΦA
    iintro ⟨Hp, -, Hr⟩
    isplitl [Hr]; · iexact Hr
    iexact Hp
  hout c := by
    rw [Pipeline.ownSems0_none]; refine (hout0 (V2 m ρ) c).trans (?_ : Pipeline.ΦA spec0 c ⊢ _); unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what the write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Fr

end
-- ==== Proof.KI.Frame.lean ====
import proofs.«154023_j17042430230825_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arguments end as launched -/

abbrev hostOps0_W : List (Ref sig .tc) := [main_c, main_v0, main_v1, main_c_0, main_v2, main_v3, main_v4, main_v5, main_v6, main_cst, main_v7, main_cst_1, main_v8, main_v9, main_c_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps0_1_W : List (Ref sig .tc) := [main_call0_v0, main_v10]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps2_W : List (Ref sig .tc) := [main_v13]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer no host stretch writes and no region stages as an array keeps its launch contents to the end. -/
theorem W5_of_untouched (c : Dev nD) (b : Ref sig .tc) (h0 : b ∉ hostOps0_W) (h1 : b ∉ hostOps0_1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := W3_of_ne m ρ c b ha0
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Fr

end
-- ==== Proof.Val.Host.lean ====
import proofs.«154023_j17042430230825_1_alg».proof.Proof.KI.Run
import proofs.«154023_j17042430230825_1_alg».proof.Proof.Val.RefRead
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable [Cert.ReferenceIdeal.Facts]
variable (m : (ℓ : Loc nD τ sig) → Buf (Elt Ideal) ℓ) (ρ : Dev nD → PrngReg) (c : Dev nD)

/-! ## Region 0 leaves its input arrays as it found them, and its output array at what its write-backs leave -/

theorem v3_v9 : V3 (F := Ideal) m ρ c main_v9 = V2 (F := Ideal) m ρ c main_v9 :=
  (W3_arr m ρ c 0).trans (((dat0 (V2 m ρ) c).arrAt_in 0 rfl _).trans (A_eq0 (V2 m ρ) c 0))

theorem v3_v10 : V3 (F := Ideal) m ρ c main_v10 = V2 (F := Ideal) m ρ c main_v10 :=
  (W3_arr m ρ c 1).trans (((dat0 (V2 m ρ) c).arrAt_in 1 rfl _).trans (A_eq0 (V2 m ρ) c 1))

theorem v3_lse : (V3 (F := Ideal) m ρ c main_v11 : S4096x1.Idx → EReal) = (dat0 (V2 (F := Ideal) m ρ) c).arrAt 2 cfg0.N :=
  W3_arr m ρ c 2

/-! ## The final slice reads region 1's output array at the same coordinates -/

theorem w5_out (r : Fin 4096) (j : Fin 50000) :
    (W5 (F := Ideal) m ρ c (Proc.devRef .tc main_v13) : S4096x50000.Idx → EReal) (ix2 r j)
      = ((dat1 (V3 (F := Ideal) m ρ) c).arrAt 3 cfg1.N : S4096x50176.Idx → EReal) (ix2 r ⟨j.val, by omega⟩) := by
  have e : (W5 (F := Ideal) m ρ c (Proc.devRef .tc main_v13) : S4096x50000.Idx → EReal)
      = extractStridedSlice S4096x50000 ![0, 0] (W4 (F := Ideal) m ρ c (Proc.devRef .tc main_v12) : S4096x50176.Idx → EReal) slices_S4096x50176_S4096x50000_0_0 := by
    show StableHlo.after hostOps2 (W4 (F := Ideal) m ρ c) (Proc.devRef .tc main_v13) = _
    after_results
  rw [e, W4_arr m ρ c 3]
  exact slice2_axis1_apply 0 _ _ r j ⟨j.val, _⟩ (Nat.zero_add _).symm

/-! ## The weight array padded with zero rows -/

/-- The padding value: the integer zero converted to a float is the real zero. -/
theorem pad_value :
    (sitofp .f32 (constantI S_ 32 0#32) : FVec Ideal S_ .f32) (Shape.Idx.first h_S_) = (0 : EReal) := by
  show ((((0#32 : BitVec 32).toInt : ℤ) : ℝ) : EReal) = 0
  simp

/-- The padded weight array as region 0 finds it: the third argument with 176 rows of the padding value below it. -/
theorem v2_wpad_eq :
    (V2 (F := Ideal) m ρ c main_v10 : S50176x128.Idx → EReal)
      = pad S50176x128 ![0, 0] ![176, 0] ![0, 0] (m ((c : Thread nD τ).loc main_arg2) : S50000x128.Idx → EReal)
          (sitofp .f32 (constantI S_ 32 0#32) : FVec Ideal S_ .f32) pads_S50000x128_S50176x128_01760_000 h_S_ := by
  show StableHlo.after hostOps0_1 (StableHlo.after hostOps0 (W0 (F := Ideal) m ρ c)) (Proc.devRef .tc main_v10) = _
  after_results
  rfl

theorem v2_wpad (j : Fin 50176) (k : Fin 128) :
    (V2 (F := Ideal) m ρ c main_v10 : S50176x128.Idx → EReal) (ix2 j k)
      = (if h : j.val < 50000 then (m ((c : Thread nD τ).loc main_arg2) : S50000x128.Idx → EReal) (ix2 ⟨j.val, h⟩ k) else 0 : EReal) := by
  rw [v2_wpad_eq]
  split
  · next h =>
    refine pad_apply_of_inside _ _ _ _ _ pads_S50000x128_S50176x128_01760_000 h_S_ (ix2 j k) (ix2 ⟨j.val, h⟩ k) fun a => ?_
    match a with
    | ⟨0, _⟩ => show j.val = 0 + j.val * (0 + 1); omega
    | ⟨1, _⟩ => show k.val = 0 + k.val * (0 + 1); omega
  · next h =>
    refine (pad_apply_of_not_inside _ _ _ _ _ pads_S50000x128_S50176x128_01760_000 h_S_ (ix2 j k) (0 : Fin 2) ?_).trans pad_value
    show ¬(0 ≤ j.val ∧ (j.val - 0) % (0 + 1) = 0 ∧ (j.val - 0) / (0 + 1) < 50000)
    omega

/-! ## The pooled array: the kernel's first host stretch is the reference's first nine stages -/

/-- From any contents, the first host stretch leaves in the pooled array's buffer the reference's pooled array of the
    first two arguments as those contents have them. -/
theorem pooled_of (V : Valuation τ sig (Elt Ideal)) :
    (StableHlo.after hostOps0 V (Proc.devRef .tc main_v9) : S4096x128.Idx → EReal)
      = Cert.ReferenceIdeal.ReadP.val_main_v9 (F := Ideal) (V (Proc.devRef .tc main_arg0)) (V (Proc.devRef .tc main_arg1)) := by
  after_results
  generalize V (Proc.devRef .tc main_arg0) = x0
  generalize V (Proc.devRef .tc main_arg1) = x1
  unfold Cert.ReferenceIdeal.ReadP.val_main_v9 Cert.ReferenceIdeal.ReadP.val_main_v8 Cert.ReferenceIdeal.ReadP.val_main_cst_1
    Cert.ReferenceIdeal.ReadP.val_main_v7 Cert.ReferenceIdeal.ReadP.val_main_cst Cert.ReferenceIdeal.ReadP.val_main_v6
    Cert.ReferenceIdeal.ReadP.val_main_v5 Cert.ReferenceIdeal.ReadP.val_main_v4 Cert.ReferenceIdeal.ReadP.val_main_v3
    Cert.ReferenceIdeal.ReadP.val_main_v2 Cert.ReferenceIdeal.ReadP.val_main_c_0 Cert.ReferenceIdeal.ReadP.val_main_v1
    Cert.ReferenceIdeal.ReadP.val_main_v0 Cert.ReferenceIdeal.ReadP.val_main_c
  rfl

theorem v2_pooled :
    (V2 (F := Ideal) m ρ c main_v9 : S4096x128.Idx → EReal)
      = Cert.ReferenceIdeal.ReadP.val_main_v9 (F := Ideal) (m ((c : Thread nD τ).loc main_arg0)) (m ((c : Thread nD τ).loc main_arg1)) := by
  have e : (V2 (F := Ideal) m ρ c main_v9 : S4096x128.Idx → EReal)
      = (StableHlo.after hostOps0 (W0 (F := Ideal) m ρ c) (Proc.devRef .tc main_v9) : S4096x128.Idx → EReal) := by
    show StableHlo.after hostOps0_1 (StableHlo.after hostOps0 (W0 (F := Ideal) m ρ c)) (Proc.devRef .tc main_v9) = _
    generalize StableHlo.after hostOps0 (W0 (F := Ideal) m ρ c) = V1
    after_results
  rw [e, pooled_of]

end Cert.KernelIdeal.Val

end
-- ==== Proof.Val.Arr1.lean ====
import proofs.«154023_j17042430230825_1_alg».proof.Proof.KI.Region1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-! # Region 1's output array, entry by entry

The region walks 98 column tiles of width 512 of a 4096 × 50176 array. At tile `t` it reads the whole pooled array,
rows `512 t … 512 t + 511` of the padded weight array and the whole log-sum-exp column, and writes tile `t` of the
output. Since 98 · 512 = 50176 the tiles cover the output array, so after the region entry `(r, j)` is the payload of
(the pooled array, weight rows `512 (j / 512) …`, the log-sum-exp column) at `(r, j % 512)`. -/

/-- The pooled array as the region finds it. -/
abbrev a9 (c : Dev nD) : Vec F S4096x128 .f32 := V c main_v9
/-- The padded weight array as the region finds it. -/
abbrev a10 (c : Dev nD) : Vec F S50176x128 .f32 := V c main_v10
/-- The log-sum-exp column as the region finds it. -/
abbrev a11 (c : Dev nD) : Vec F S4096x1 .f32 := V c main_v11

/-- Rows `512 n … 512 n + 511` of the padded weight array (the reduction modulo 50176 only makes the definition
    total: for `n < 98` the row is `512 n + y₀` itself). -/
def wblk (c : Dev nD) (n : ℕ) : Vec F S512x128 .f32 :=
  fun y => a10 V c (ValueIdx.ix2 ⟨(512 * n + (y 0).val) % 50176, Nat.mod_lt _ (by norm_num)⟩ (y 1))

/-- The output array after the region, as one function of the arrays the region finds: entry `(r, j)` is the payload
    of the pooled array, the weight rows of column tile `j / 512` and the log-sum-exp column, at `(r, j % 512)`. -/
def outArr (c : Dev nD) : Vec F S4096x50176 .f32 :=
  fun i => k1_pay1 (F := F) (a9 V c) (wblk V c ((i 1).val / 512)) (a11 V c)
    (ValueIdx.ix2 (i 0) ⟨(i 1).val % 512, Nat.mod_lt _ (by norm_num)⟩)

/-- The offset `(0, 0)` is the zero offset. -/
theorem zero_off1 : (![0, 0] : Fin 2 → Nat) = fun _ => 0 := funext fun a => by fin_cases a <;> rfl

/-- The four index maps over the 98 points: the pooled array and the log-sum-exp column stay at block `(0, 0)`, the
    weight array is at block `(t, 0)` and the output at block `(0, t)`. -/
theorem index_maps1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- A point of the grid is below 98. -/
theorem point_lt1 (t : Fin cfg1.N) : t.val < 98 := by
  have h : t.val < grid1.N := t.isLt
  have := N_1
  omega

/-- At every point the pooled array's block is the whole array. -/
theorem iblk1_0_eq (c : Dev nD) (t : Fin cfg1.N) : (iblk1 V c 0 t : Vec F S4096x128 .f32) = a9 V c := by
  obtain ⟨e0, e1, -⟩ := index_maps1 t
  funext y
  show V c main_v9 (((cfg1.win 0).blk t).view.emb y) = V c main_v9 y
  congr 1
  funext a; apply Fin.ext
  match a with
  | ⟨0, _⟩ => show win1_0.index t (0 : Fin 2) * 4096 + 1 * (y 0).val = (y 0).val; omega
  | ⟨1, _⟩ => show win1_0.index t (1 : Fin 2) * 128 + 1 * (y 1).val = (y 1).val; omega

/-- At every point the log-sum-exp column's block is the whole column. -/
theorem iblk1_2_eq (c : Dev nD) (t : Fin cfg1.N) : (iblk1 V c 2 t : Vec F S4096x1 .f32) = a11 V c := by
  obtain ⟨-, -, -, -, e0, e1, -⟩ := index_maps1 t
  funext y
  show V c main_v11 (((cfg1.win 2).blk t).view.emb y) = V c main_v11 y
  congr 1
  funext a; apply Fin.ext
  match a with
  | ⟨0, _⟩ => show win1_2.index t (0 : Fin 2) * 4096 + 1 * (y 0).val = (y 0).val; omega
  | ⟨1, _⟩ => show win1_2.index t (1 : Fin 2) * 1 + 1 * (y 1).val = (y 1).val; omega

/-- At point `t` the weight array's block is rows `512 t … 512 t + 511`: a block's row is the block index times 512
    plus the row inside the block, and `512 t + y₀ < 50176` for `t < 98`. -/
theorem iblk1_1_eq (c : Dev nD) (t : Fin cfg1.N) : (iblk1 V c 1 t : Vec F S512x128 .f32) = wblk V c t.val := by
  obtain ⟨-, -, e0, e1, -⟩ := index_maps1 t
  have ht := point_lt1 t
  funext y
  have hy0 : (y 0).val < 512 := (y 0).isLt
  show V c main_v10 (((cfg1.win 1).blk t).view.emb y)
    = V c main_v10 (ValueIdx.ix2 ⟨(512 * t.val + (y 0).val) % 50176, Nat.mod_lt _ (by norm_num)⟩ (y 1))
  congr 1
  funext a; apply Fin.ext
  match a with
  | ⟨0, _⟩ => show win1_1.index t (0 : Fin 2) * 512 + 1 * (y 0).val = (512 * t.val + (y 0).val) % 50176; omega
  | ⟨1, _⟩ => show win1_1.index t (1 : Fin 2) * 128 + 1 * (y 1).val = (y 1).val; omega

/-- The payload at equal operands and equal indices. -/
theorem k1_pay1_congr {x0 x0' : Vec F S4096x128 .f32} {x1 x1' : Vec F S512x128 .f32} {x2 x2' : Vec F S4096x1 .f32}
    {j j' : S4096x512.Idx} (h0 : x0 = x0') (h1 : x1 = x1') (h2 : x2 = x2') (hj : j = j') :
    k1_pay1 x0 x1 x2 j = k1_pay1 x0' x1' x2' j' := by
  subst h0; subst h1; subst h2; subst hj; rfl

/-- What point `t` writes back is column tile `t` of `outArr`: an element `(y₀, y₁)` of the tile sits in the array at
    `(y₀, 512 t + y₁)`, whose column has quotient `t` and remainder `y₁` by 512. -/
theorem flushed1_3_eq (c : Dev nD) (t : Fin cfg1.N) :
    (dat1 V c).flushed 3 t = ((cfg1.win 3).blk t).view.read (Elt F) (outArr V c) := by
  show (cfg1.win 3).cut (grid1.coords t) ((dat1 V c).after 3 t) = _
  rw [after1_3]
  unfold out1_3
  rw [View.canon_unit_zero zero_off1]
  simp only [View.ld_unit_zero (S := S4096x128) zero_off1, View.ld_unit_zero (S := S512x128) zero_off1,
    View.ld_unit_zero (S := S4096x1) zero_off1]
  obtain ⟨-, -, -, -, -, -, e0, e1⟩ := index_maps1 t
  have ht := point_lt1 t
  funext y
  have hy0 : (y 0).val < 4096 := (y 0).isLt
  have hy1 : (y 1).val < 512 := (y 1).isLt
  have hemb0 : ((((cfg1.win 3).blk t).view.emb y) 0).val = (y 0).val := by
    show win1_3.index t (0 : Fin 2) * 4096 + 1 * (y 0).val = (y 0).val; omega
  have hemb1 : ((((cfg1.win 3).blk t).view.emb y) 1).val = 512 * t.val + (y 1).val := by
    show win1_3.index t (1 : Fin 2) * 512 + 1 * (y 1).val = 512 * t.val + (y 1).val; omega
  show k1_pay1 (iblk1 V c 0 t) (iblk1 V c 1 t) (iblk1 V c 2 t) ((win1 3).xinj (grid1.coords t) y)
    = outArr V c (((cfg1.win 3).blk t).view.emb y)
  unfold outArr
  refine k1_pay1_congr (iblk1_0_eq V c t) ((iblk1_1_eq V c t).trans (congrArg (wblk V c) ?_)) (iblk1_2_eq V c t) ?_
  · rw [hemb1]; omega
  · funext a; apply Fin.ext
    match a with
    | ⟨0, _⟩ => exact hemb0.symm
    | ⟨1, _⟩ => show (y 1).val = ((((cfg1.win 3).blk t).view.emb y) 1).val % 512; rw [hemb1]; omega

/-- An index of the output array is in point `t`'s tile iff each coordinate is in the tile's range on its axis. -/
theorem mem_blk1_3 (t : Fin cfg1.N) (i : S4096x50176.Idx) :
    i ∈ ((cfg1.win 3).blk t).view.set ↔ ∀ a : Fin 2, win1_3.index t a * S4096x512.size a ≤ (i a).val ∧ (i a).val < win1_3.index t a * S4096x512.size a + S4096x512.size a := by
  show i ∈ ((View.whole main_v12).slice (win1_3.rect t)).set ↔ _
  rw [View.set_slice_whole, Rect.mem_set_unit]
  exact Iff.rfl

/-- Every index of the output array is in some point's tile, and every point writes back: column `j` is in tile
    `j / 512`, which is below 98 because `j < 50176 = 98 · 512`. -/
theorem out_covered1 (i : S4096x50176.Idx) :
    ∃ t : Fin cfg1.N, (cfg1.win 3).flush t = true ∧ i ∈ ((cfg1.win 3).blk t).view.set := by
  have hi0 : (i 0).val < 4096 := (i 0).isLt
  have hi1 : (i 1).val < 50176 := (i 1).isLt
  have hN := N_1
  let t : Fin cfg1.N := ⟨(i 1).val / 512, by show (i 1).val / 512 < grid1.N; omega⟩
  obtain ⟨-, -, -, -, -, -, e0, e1⟩ := index_maps1 t
  have e1' : win1_3.index t (1 : Fin 2) = (i 1).val / 512 := e1
  refine ⟨t, flush1_3 t, ?_⟩
  rw [mem_blk1_3]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 512 ≤ (i 1).val ∧ (i 1).val < win1_3.index t (1 : Fin 2) * 512 + 512; omega

/-- THE OUTPUT ARRAY after region 1: entry `(r, j)` is the payload of the whole pooled array, rows
    `512 (j / 512) …` of the padded weight array and the whole log-sum-exp column, at `(r, j % 512)`. -/
theorem arr1_out (c : Dev nD) : (dat1 V c).arrAt 3 cfg1.N = fun i : S4096x50176.Idx =>
    k1_pay1 (F := F) (a9 V c) (wblk V c ((i 1).val / 512)) (a11 V c)
      (ValueIdx.ix2 (i 0) ⟨(i 1).val % 512, Nat.mod_lt _ (by norm_num)⟩) :=
  (dat1 V c).arrAt_eq_of_cover 3 (outArr V c) (fun t _ => flushed1_3_eq V c t) out_covered1

end Cert.KernelIdeal.Val

end
-- ==== Proof.Val.Arr0.lean ====
import proofs.«154023_j17042430230825_1_alg».proof.Proof.KI.Region0
import proofs.«154023_j17042430230825_1_alg».proof.Proof.Val.Arr1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-! # Region 0's output array, and its input blocks

The region walks the same 98 row blocks of the padded weight array as region 1, keeps a running maximum and a running
sum, and writes the log-sum-exp column back once, at the last point, 97; its block is the whole column. So after the
region the column is what the last point leaves in the result window's buffer. The two input windows are region 1's:
the whole pooled array, and rows `512 t … 512 t + 511` of the padded weight array. -/

/-- The last point, 97, is a point of the grid. -/
theorem last_lt0 : 97 < cfg0.N := by
  have := N_0
  show 97 < grid0.N
  omega

/-- The three index maps over the 98 points: the pooled array and the log-sum-exp column stay at block `(0, 0)`, the
    weight array is at block `(t, 0)`. -/
theorem index_maps0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- A point of the grid is below 98. -/
theorem point_lt0 (t : Fin cfg0.N) : t.val < 98 := by
  have h : t.val < grid0.N := t.isLt
  have := N_0
  omega

/-- At every point the pooled array's block is the whole array. -/
theorem blk0_0 (c : Dev nD) (t : Fin cfg0.N) : (iblk0 V c 0 t : Vec F S4096x128 .f32) = a9 V c := by
  obtain ⟨e0, e1, -⟩ := index_maps0 t
  funext y
  show V c main_v9 (((cfg0.win 0).blk t).view.emb y) = V c main_v9 y
  congr 1
  funext a; apply Fin.ext
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- At point `t` the weight array's block is rows `512 t … 512 t + 511`. -/
theorem blk0_1 (c : Dev nD) (t : Fin cfg0.N) : (iblk0 V c 1 t : Vec F S512x128 .f32) = wblk V c t.val := by
  obtain ⟨-, -, e0, e1, -⟩ := index_maps0 t
  have ht := point_lt0 t
  funext y
  have hy0 : (y 0).val < 512 := (y 0).isLt
  show V c main_v10 (((cfg0.win 1).blk t).view.emb y)
    = V c main_v10 (ValueIdx.ix2 ⟨(512 * t.val + (y 0).val) % 50176, Nat.mod_lt _ (by norm_num)⟩ (y 1))
  congr 1
  funext a; apply Fin.ext
  match a with
  | ⟨0, _⟩ => show win0_1.index t (0 : Fin 2) * 512 + 1 * (y 0).val = (512 * t.val + (y 0).val) % 50176; omega
  | ⟨1, _⟩ => show win0_1.index t (1 : Fin 2) * 128 + 1 * (y 1).val = (y 1).val; omega

/-- The running triple depends on the position only, not on the proof that it is a point. -/
theorem outsAt0_congr (c : Dev nD) {n m : ℕ} (hn : n < cfg0.N) (hm : m < cfg0.N) (h : n = m) :
    outsAt0 V c n hn = outsAt0 V c m hm := by
  subst h; rfl

/-- The result window's block is its whole array at every point: contents of the block, written back, are those
    contents read through the block. -/
theorem cut_eq_read0_2 (t : Fin cfg0.N) (G : Vec F S4096x1 .f32) :
    (cfg0.win 2).cut (grid0.coords t) G = ((cfg0.win 2).blk t).view.read (Elt F) G := by
  obtain ⟨-, -, -, -, e0, e1⟩ := index_maps0 t
  funext y
  show G ((win0 2).xinj (grid0.coords t) y) = G (((cfg0.win 2).blk t).view.emb y)
  congr 1
  funext a; apply Fin.ext
  match a with
  | ⟨0, _⟩ => show (y 0).val = win0_2.index t (0 : Fin 2) * 4096 + 1 * (y 0).val; omega
  | ⟨1, _⟩ => show (y 1).val = win0_2.index t (1 : Fin 2) * 1 + 1 * (y 1).val; omega

/-- What a point that writes back writes is the whole of what the last point leaves in the result window's buffer:
    only the last point writes back, and the window's block is its whole array. -/
theorem flushed0_2_eq (c : Dev nD) (t : Fin cfg0.N) (hf : (cfg0.win 2).flush t = true) :
    (dat0 V c).flushed 2 t = ((cfg0.win 2).blk t).view.read (Elt F) (outsAt0 V c 97 last_lt0).1 := by
  have h97 : t.val % 98 = 97 := (flush0_2 t).mp hf
  have ht := point_lt0 t
  have e : outsAt0 V c t.val t.isLt = outsAt0 V c 97 last_lt0 := outsAt0_congr V c _ _ (by omega)
  show (cfg0.win 2).cut (grid0.coords t) ((dat0 V c).after 2 t) = _
  rw [after0_2, e]
  exact cut_eq_read0_2 t _

/-- An index of the log-sum-exp column is in point `t`'s block iff each coordinate is in the block's range on its
    axis. -/
theorem mem_blk0_2 (t : Fin cfg0.N) (i : S4096x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_v11).slice (win0_2.rect t)).set ↔ _
  rw [View.set_slice_whole, Rect.mem_set_unit]
  exact Iff.rfl

/-- Every index of the log-sum-exp column is in the last point's block, and the last point writes back. -/
theorem lse_covered0 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨-, -, -, -, e0, e1⟩ := index_maps0 ⟨97, last_lt0⟩
  refine ⟨⟨97, last_lt0⟩, (flush0_2 _).mpr (by rfl), ?_⟩
  rw [mem_blk0_2]
  intro a
  match a with
  | ⟨0, _⟩ => show win0_2.index ⟨97, last_lt0⟩ (0 : Fin 2) * 4096 ≤ (i 0).val ∧ (i 0).val < win0_2.index ⟨97, last_lt0⟩ (0 : Fin 2) * 4096 + 4096; omega
  | ⟨1, _⟩ => show win0_2.index ⟨97, last_lt0⟩ (1 : Fin 2) * 1 ≤ (i 1).val ∧ (i 1).val < win0_2.index ⟨97, last_lt0⟩ (1 : Fin 2) * 1 + 1; omega

/-- THE LOG-SUM-EXP COLUMN after region 0 is what the last point leaves in the result window's buffer. -/
theorem arr0_lse (c : Dev nD) : (dat0 V c).arrAt 2 cfg0.N = (outsAt0 V c 97 last_lt0).1 :=
  (dat0 V c).arrAt_eq_of_cover 2 (outsAt0 V c 97 last_lt0).1 (fun t hf => flushed0_2_eq V c t hf) lse_covered0

end Cert.KernelIdeal.Val

end
-- ==== Proof.KI.Pieces.lean ====
import proofs.«154023_j17042430230825_1_alg».proof.Proof.KI.Region0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: the pieces the three runs leave, read as the body's payloads -/

/-- Every store and load of the body is at offsets zero. -/
private theorem hz : (![0, 0] : Fin 2 → Nat) = fun _ => 0 := funext fun a => by fin_cases a <;> rfl

/-- At the first grid point the running maximum is reset to the least value, read back, and left at the maximum of that and this tile's row maxima. -/
theorem sout0_A_0_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) :
    sout0_A_0 c i arg1 harg1 arg2 harg2 arg3 harg3 arg4 harg4 arg5 harg5 hc0 hc1 x0 x1 = k0_pay1 (k0_pay6 i x0 x1 (k0_pay3 (F := F))) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S4096x1) hz]
  simp only [View.readAt_eq_ld, harg1.read_unread, harg2.read_unread, View.readCov_unit_zero (S := S4096x1) _ hz, View.ld_unit_zero (S := S4096x128) hz, View.ld_unit_zero (S := S512x128) hz, View.ld_unit_zero (S := S4096x1) hz]

/-- At the first grid point the running sum is reset to zero, read back, and left at this tile's rescaled sum over the reset values. -/
theorem sout0_A_1_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : cond0_0 i) (hc1 : ¬cond0_1 i)
    (x0 : Vec F S4096x128 .f32) (x1 : Vec F S512x128 .f32) :
    sout0_A_1 c i arg1 harg1 arg2 harg2 arg3 harg3 arg4 harg4 arg5 harg5 hc0 hc1 x0 x1 = k0_pay7 i x0 x1 (k0_pay3 (F := F)) (k0_pay3 (F := F)) (k0_pay4 (F := F)) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S4096x1) hz]
  simp only [View.readAt_eq_ld, harg1.read_unread, harg2.read_unread, View.readCov_unit_zero (S := S4096x1) _ hz, View.ld_unit_zero (S := S4096x128) hz, View.ld_unit_zero (S := S512x128) hz, View.ld_unit_zero (S := S4096x1) hz]

/-- At a middle grid point the running maximum is left at the maximum of what it held and this tile's row maxima. -/
theorem sout0_B_0_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) :
    sout0_B_0 c i arg1 harg1 arg2 harg2 arg3 harg3 arg4 harg4 arg5 harg5 hc0 hc1 x0 x1 xs0 xs1 = k0_pay1 (k0_pay6 i x0 x1 xs0) := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero (S := S4096x1) hz]
  simp only [View.readAt_eq_ld, harg1.read_unread, harg2.read_unread, harg4.read_unread, View.ld_unit_zero (S := S4096x128) hz, View.ld_unit_zero (S := S512x128) hz, View.ld_unit_zero (S := S4096x1) hz]

/-- At a middle grid point the running sum is left at the rescaled sum over what the two running stores held. -/
theorem sout0_B_1_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : ¬cond0_1 i)
    (x0 : Vec F S4096x128 .f32) (x1 : Vec F S512x128 .f32) (xs0 xs1 : Vec F S4096x1 .f32) :
    sout0_B_1 c i arg1 harg1 arg2 harg2 arg3 harg3 arg4 harg4 arg5 harg5 hc0 hc1 x0 x1 xs0 xs1 = k0_pay7 i x0 x1 xs0 xs0 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero (S := S4096x1) hz]
  simp only [View.readAt_eq_ld, harg1.read_unread, harg2.read_unread, harg4.read_unread, harg5.read_unread, View.ld_unit_zero (S := S4096x128) hz, View.ld_unit_zero (S := S512x128) hz, View.ld_unit_zero (S := S4096x1) hz]

/-- At the last grid point the running maximum is left as at a middle point. -/
theorem sout0_C_0_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) :
    sout0_C_0 c i arg1 harg1 arg2 harg2 arg3 harg3 arg4 harg4 arg5 harg5 hc0 hc1 x0 x1 xs0 xs1 = k0_pay1 (k0_pay6 i x0 x1 xs0) := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero (S := S4096x1) hz]
  simp only [View.readAt_eq_ld, harg1.read_unread, harg2.read_unread, harg4.read_unread, View.ld_unit_zero (S := S4096x128) hz, View.ld_unit_zero (S := S512x128) hz, View.ld_unit_zero (S := S4096x1) hz]

/-- At the last grid point the running sum is left as at a middle point. -/
theorem sout0_C_1_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) :
    sout0_C_1 c i arg1 harg1 arg2 harg2 arg3 harg3 arg4 harg4 arg5 harg5 hc0 hc1 x0 x1 xs0 xs1 = k0_pay7 i x0 x1 xs0 xs0 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero (S := S4096x1) hz]
  simp only [View.readAt_eq_ld, harg1.read_unread, harg2.read_unread, harg4.read_unread, harg5.read_unread, View.ld_unit_zero (S := S4096x128) hz, View.ld_unit_zero (S := S512x128) hz, View.ld_unit_zero (S := S4096x1) hz]

/-- At the last grid point the result window is left at the running maximum plus the logarithm of the running sum, both as this point has just left them (each read back after its store). -/
theorem out0_C_2_eq (c : Dev nD) (i : grid0.Coords) (arg1 : Memref sig .tc .vmem S4096x128 .f32) (harg1 : arg1.IsWhole) (arg2 : Memref sig .tc .vmem S512x128 .f32) (harg2 : arg2.IsWhole) (arg3 : Memref sig .tc .vmem S4096x1 .f32) (harg3 : arg3.IsWhole) (arg4 : Memref sig .tc .vmem S4096x1 .f32) (harg4 : arg4.IsWhole) (arg5 : Memref sig .tc .vmem S4096x1 .f32) (harg5 : arg5.IsWhole) (hc0 : ¬cond0_0 i) (hc1 : cond0_1 i)
    (x0 : Vec F S4096x128 .f32) (x1 : Vec F S512x128 .f32) (xs0 xs1 : Vec F S4096x1 .f32) :
    out0_C_2 c i arg1 harg1 arg2 harg2 arg3 harg3 arg4 harg4 arg5 harg5 hc0 hc1 x0 x1 xs0 xs1 = k0_pay2 (k0_pay1 (k0_pay6 i x0 x1 xs0)) (k0_pay7 i x0 x1 xs0 xs0 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero (S := S4096x1) hz]
  simp only [View.readAt_eq_ld, harg1.read_unread, harg2.read_unread, harg4.read_unread, harg5.read_unread, View.readCov_unit_zero (S := S4096x1) _ hz, View.ld_unit_zero (S := S4096x128) hz, View.ld_unit_zero (S := S512x128) hz, View.ld_unit_zero (S := S4096x1) hz]

/-! ## The accumulation in payload form, over the points -/

/-- After the first point: the two running stores at the reset values folded with the first tile. -/
theorem sc_zero (c : Dev nD) (h : 0 < cfg0.N) : (outsAt0 V c 0 h).2 = (k0_pay1 (k0_pay6 (grid0.coords ⟨0, h⟩) (iblk0 V c 0 ⟨0, h⟩) (iblk0 V c 1 ⟨0, h⟩) (k0_pay3 (F := F))), k0_pay7 (grid0.coords ⟨0, h⟩) (iblk0 V c 0 ⟨0, h⟩) (iblk0 V c 1 ⟨0, h⟩) (k0_pay3 (F := F)) (k0_pay3 (F := F)) (k0_pay4 (F := F))) := by
  have h0 : (⟨0, h⟩ : Fin cfg0.N).val % 98 = 0 := Nat.zero_mod _
  have h1 : ¬(⟨0, h⟩ : Fin cfg0.N).val % 98 = 97 := by dsimp only; omega
  rw [outsAt0_A V c ⟨0, h⟩ h0 h1]
  dsimp only
  rw [sout0_A_0_eq (F := F), sout0_A_1_eq (F := F)]

/-- After a later point: the two running stores at what the point before left, folded with this point's tile. -/
theorem sc_succ (c : Dev nD) (n : ℕ) (h : n + 1 < cfg0.N) : (outsAt0 V c (n + 1) h).2 = (k0_pay1 (k0_pay6 (grid0.coords ⟨n + 1, h⟩) (iblk0 V c 0 ⟨n + 1, h⟩) (iblk0 V c 1 ⟨n + 1, h⟩) (outsAt0 V c n (Nat.lt_of_succ_lt h)).2.1), k0_pay7 (grid0.coords ⟨n + 1, h⟩) (iblk0 V c 0 ⟨n + 1, h⟩) (iblk0 V c 1 ⟨n + 1, h⟩) (outsAt0 V c n (Nat.lt_of_succ_lt h)).2.1 (outsAt0 V c n (Nat.lt_of_succ_lt h)).2.1 (outsAt0 V c n (Nat.lt_of_succ_lt h)).2.2) := by
  have hN : n + 1 < 98 := lt_of_lt_of_eq h (show cfg0.N = 98 from N_0)
  have h0 : ¬(⟨n + 1, h⟩ : Fin cfg0.N).val % 98 = 0 := by dsimp only; omega
  by_cases h1 : (⟨n + 1, h⟩ : Fin cfg0.N).val % 98 = 97
  · rw [outsAt0_C V c ⟨n + 1, h⟩ h0 h1]
    dsimp only
    rw [sout0_C_0_eq (F := F), sout0_C_1_eq (F := F)]
    rfl
  · rw [outsAt0_B V c ⟨n + 1, h⟩ h0 h1]
    dsimp only
    rw [sout0_B_0_eq (F := F), sout0_B_1_eq (F := F)]
    rfl

/-- After the last point the result window holds the running maximum plus the logarithm of the running sum, both as
    that point leaves them. -/
theorem lse_last (c : Dev nD) (h : 97 < cfg0.N) : (outsAt0 V c 97 h).1 = k0_pay2 (outsAt0 V c 97 h).2.1 (outsAt0 V c 97 h).2.2 := by
  have h0 : ¬(⟨97, h⟩ : Fin cfg0.N).val % 98 = 0 := by dsimp only; omega
  have h1 : (⟨97, h⟩ : Fin cfg0.N).val % 98 = 97 := rfl
  rw [outsAt0_C V c ⟨97, h⟩ h0 h1]
  dsimp only
  rw [out0_C_2_eq (F := F), sout0_C_0_eq (F := F), sout0_C_1_eq (F := F)]

end Cert.KernelIdeal.Fr

end
-- ==== Proof.Val.Pay.lean ====
import proofs.«154023_j17042430230825_1_alg».proof.Proof.Gen.KernelIdeal.Skeleton
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.IdealRules

noncomputable section

open scoped BigOperators

namespace Cert.KernelIdeal.Val

open Idealize.ShloMosaic Idealize.ShloMosaic.ValueIdx Cert.KernelIdeal Cert.KernelIdeal.Gen

/-! ## Layout operations of column vectors, read at an index given by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The product of a row block with a transposed tile, read at an index -/

theorem lhs_dot_0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
theorem lhs_dot_1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
theorem rhs_dot_0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
theorem rhs_dot_1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- The product into the zero accumulator, at `(r, q)`: the sum over the contracted axis of the left operand's row `r`
    times the right operand's column `q`. -/
theorem matmul_zero_apply (A : FVec Ideal S4096x128 .bf16) (B : FVec Ideal S128x512 .bf16) (r : Fin 4096) (q : Fin 512) :
    matmul dot_S4096x128_S128x512_S4096x512_1_0_0_1_n_n none A B (constant (F := Ideal) S4096x512 .f32 0x00000000#32) (ix2 r q)
      = ∑ k : Fin 128, A (ix2 r k) * B (ix2 k q) := by
  simp only [matmul]
  rw [Ideal.matmul_constant_zero_apply, ← Equiv.sum_comp (contrEquiv1 dot_S4096x128_S128x512_S4096x512_1_0_0_1_n_n 128 rfl rfl).symm]
  refine Finset.sum_congr rfl fun k _ => ?_
  have hk := contrEquiv1_symm_val dot_S4096x128_S128x512_S4096x512_1_0_0_1_n_n 128 rfl rfl k
  have el : dot_S4096x128_S128x512_S4096x512_1_0_0_1_n_n.lhsIdx (ix2 r q) ((contrEquiv1 dot_S4096x128_S128x512_S4096x512_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S4096x128_S128x512_S4096x512_1_0_0_1_n_n.rhsIdx (ix2 r q) ((contrEquiv1 dot_S4096x128_S128x512_S4096x512_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The logit of row `r` against the tile's row `q`: the inner product over the 128 features. -/
def logitT (x0 : Vec Ideal S4096x128 .f32) (x1 : Vec Ideal S512x128 .f32) (r : Fin 4096) (q : Fin 512) : EReal :=
  ∑ k : Fin 128, x0 (ix2 r k) * x1 (ix2 q k)

/-- The kernels' common product — both operands narrowed (the identity on extended reals), the tile transposed — at
    `(r, q)` is the logit. -/
theorem logits_apply (x0 : Vec Ideal S4096x128 .f32) (x1 : Vec Ideal S512x128 .f32) (r : Fin 4096) (q : Fin 512) :
    matmul dot_S4096x128_S128x512_S4096x512_1_0_0_1_n_n none
        (truncf .bf16 (shapeCast S4096x128 x0 shapeCasts_S4096x128_S4096x128) bitsLt_bf16_f32)
        (transpose S128x512 [1, 0] (truncf .bf16 (shapeCast S512x128 x1 shapeCasts_S512x128_S512x128) bitsLt_bf16_f32) transposes_S512x128_p1_0_S128x512)
        (constant (F := Ideal) S4096x512 .f32 0x00000000#32) (ix2 r q)
      = logitT x0 x1 r q := by
  rw [matmul_zero_apply]
  unfold logitT
  refine Finset.sum_congr rfl fun k _ => ?_
  rw [transpose_ix2_apply, shapeCast_self, shapeCast_self]
  rfl

/-! ## The payload of the output kernel -/

/-- The output tile at `(r, q)`: the logit less the row's log-sum-exp. -/
theorem pay1_1_apply (x0 : Vec Ideal S4096x128 .f32) (x1 : Vec Ideal S512x128 .f32) (x2 : Vec Ideal S4096x1 .f32) (r : Fin 4096) (q : Fin 512) :
    k1_pay1 (F := Ideal) x0 x1 x2 (ix2 r q) = logitT x0 x1 r q - x2 (ix2 r (0 : Fin 1)) := by
  unfold k1_pay1
  rw [subf_apply, logits_apply, broadcastTo_a1_ab_apply, shapeCast_self]

/-! ## The payloads of the log-sum-exp kernel -/

theorem pay0_2_apply (ms ls : Vec Ideal S4096x1 .f32) (r : Fin 4096) :
    k0_pay2 (F := Ideal) ms ls (ix2 r (0 : Fin 1)) = ms (ix2 r (0 : Fin 1)) + Ideal.log (ls (ix2 r (0 : Fin 1))) := rfl

theorem pay0_1_eq (v : Vec Ideal S4096x1 .f32) : k0_pay1 (F := Ideal) v = v := by
  unfold k0_pay1
  exact shapeCast_self _ _

/-- The pattern of negative infinity denotes `⊥`. -/
theorem ofBits_neg_inf : Ideal.ofBits .f32 0xFF800000#32 = (⊥ : EReal) := by simp [Ideal.ofBits, Ideal.ieee]

theorem pay0_3_apply (r : Fin 4096) : k0_pay3 (F := Ideal) (ix2 r (0 : Fin 1)) = ⊥ := by
  unfold k0_pay3
  rw [shapeCast_self]
  exact ofBits_neg_inf

theorem pay0_4_apply (r : Fin 4096) : k0_pay4 (F := Ideal) (ix2 r (0 : Fin 1)) = 0 := by
  unfold k0_pay4
  rw [shapeCast_self]
  exact Ideal.ofBits_zero_f32

/-- The named large negative constant denotes `⊥`. -/
theorem neg_big : Named.named (F := Ideal) κ "neg_big" (φ := .f32) 0xFF333332#32 = (⊥ : EReal) :=
  IdealRules.named_const.ideal_named_scalar _ _ _ _ rfl

/-- The vocabulary mask's bit at column `q` of tile `n`: set exactly when the column's vocabulary index `512 n + q`
    is below the vocabulary size (all the words involved are small non-negative ones). -/
theorem mask_bit (n q : ℕ) (hn : n < 98) (hq : q < 512) :
    IntOp.cmpi .slt (IntOp.addi (Scalar.muli (BitVec.ofNat 32 n) 512#32) (BitVec.ofNat 32 q)) 50000#32
      = if 512 * n + q < 50000 then 1#1 else 0#1 := by
  have hv : (IntOp.addi (Scalar.muli (BitVec.ofNat 32 n) 512#32) (BitVec.ofNat 32 q)).toNat = 512 * n + q := by
    simp only [IntOp.addi, Scalar.muli, IntOp.muli, BitVec.toNat_add, BitVec.toNat_mul, BitVec.toNat_ofNat]
    omega
  have h50 : (50000#32 : BitVec 32).toNat = 50000 := rfl
  have key := StableHlo.Predicate.slt_iff_toNat (a := IntOp.addi (Scalar.muli (BitVec.ofNat 32 n) 512#32) (BitVec.ofNat 32 q))
    (b := 50000#32) (by rw [hv]; omega) (by rw [h50]; omega)
  rw [hv, h50] at key
  split
  · next h => exact key.mpr h
  · next h => exact eq_zero_of_ne_one fun h1 => h (key.mp h1)

/-- The masked logits at `(r, q)` of tile `i`: the logit where the column is a vocabulary entry, `⊥` on the padding. -/
theorem pay0_5_apply (i : grid0.Coords) (x0 : Vec Ideal S4096x128 .f32) (x1 : Vec Ideal S512x128 .f32) (r : Fin 4096) (q : Fin 512) :
    k0_pay5 (F := Ideal) i x0 x1 (ix2 r q) = if 512 * (i 0).val + q.val < 50000 then logitT x0 x1 r q else ⊥ := by
  have h98 : (i 0).val < 98 := (i 0).isLt
  unfold k0_pay5
  rw [select_apply, logits_apply]
  have hc : cmpi .slt (addi (broadcast S4096x512 (Scalar.muli (BitVec.ofNat 32 (i 0).val) 512#32)) (iota .tc S4096x512 32 [1] iota_S4096x512_d1_w32))
      (broadcast S4096x512 50000#32) (ix2 r q) = if 512 * (i 0).val + q.val < 50000 then 1#1 else 0#1 := by
    show IntOp.cmpi .slt (IntOp.addi (Scalar.muli _ 512#32) (iota .tc S4096x512 32 [1] iota_S4096x512_d1_w32 (ix2 r q))) 50000#32 = _
    rw [iota_single_apply]
    exact mask_bit _ _ h98 q.isLt
  rw [hc]
  split
  · rw [select_one]
  · rw [select_zero, broadcast_apply, neg_big]

/-- A row's maximum from `⊥`, kept as a column, at row `r`. -/
theorem rowMax_apply (src : FVec Ideal S4096x512 .f32) (hφ : FKind.Formats .f32) (hacc : (0xFF800000#32 : BitVec 32) = 0xFF800000#32)
    (r : Fin 4096) (u : Fin 1) :
    shapeCast S4096x1 (multiReduction .maximumf [1] S4096 src 0xFF800000#32 reduces_S4096x512_S4096 hφ hacc) shapeCasts_S4096_S4096x1 (ix2 r u)
      = (Finset.univ : Finset (Fin 512)).fold max (⊥ : EReal) (fun q => src (ix2 r q)) := by
  rw [shapeCast_a_a1_apply]
  refine (Ideal.multiReduction_maximumf_single src 0xFF800000#32 reduces_S4096x512_S4096 hφ hacc (ix1 r)).trans ?_
  have hb : (FloatOps.ofBits (F := Ideal) .f32 0xFF800000#32 : EReal) = ⊥ := ofBits_neg_inf
  rw [hb]
  refine congrArg (fun f => (Finset.univ : Finset (Fin 512)).fold max (⊥ : EReal) f) (funext fun k => ?_)
  exact congrArg src (funext fun a => Fin.ext (by match a with | ⟨0, _⟩ => rfl | ⟨1, _⟩ => rfl))

/-- A row's sum, kept as a column, at row `r`. -/
theorem rowSum_apply (src : FVec Ideal S4096x512 .f32) (hφ : FKind.Formats .f32) (hacc : (0x00000000#32 : BitVec 32) = 0x00000000#32)
    (r : Fin 4096) (u : Fin 1) :
    shapeCast S4096x1 (multiReduction .add [1] S4096 src 0x00000000#32 reduces_S4096x512_S4096 hφ hacc) shapeCasts_S4096_S4096x1 (ix2 r u)
      = ∑ q : Fin 512, src (ix2 r q) := by
  rw [shapeCast_a_a1_apply]
  refine (Ideal.multiReduction_add_single src 0x00000000#32 reduces_S4096x512_S4096 hφ hacc (ix1 r)).trans ?_
  refine Finset.sum_congr rfl fun k _ => ?_
  exact congrArg src (funext fun a => Fin.ext (by match a with | ⟨0, _⟩ => rfl | ⟨1, _⟩ => rfl))

/-- The running maximum after tile `i`, at row `r`: the larger of the maximum so far and the tile's row maximum. -/
theorem pay0_6_apply (i : grid0.Coords) (x0 : Vec Ideal S4096x128 .f32) (x1 : Vec Ideal S512x128 .f32) (ms : Vec Ideal S4096x1 .f32) (r : Fin 4096) :
    k0_pay6 (F := Ideal) i x0 x1 ms (ix2 r (0 : Fin 1))
      = max (ms (ix2 r (0 : Fin 1))) ((Finset.univ : Finset (Fin 512)).fold max (⊥ : EReal) (fun q => k0_pay5 (F := Ideal) i x0 x1 (ix2 r q))) := by
  unfold k0_pay6
  rw [maximumf_apply]
  exact congrArg (max (ms (ix2 r (0 : Fin 1)))) (rowMax_apply _ _ _ r 0)

/-- The running sum after tile `i`, at row `r`: the sum so far rescaled to the new maximum, plus the tile's row sum of
    exponentials against the new maximum. -/
theorem pay0_7_apply (i : grid0.Coords) (x0 : Vec Ideal S4096x128 .f32) (x1 : Vec Ideal S512x128 .f32) (ms ms' ls : Vec Ideal S4096x1 .f32) (r : Fin 4096) :
    k0_pay7 (F := Ideal) i x0 x1 ms ms' ls (ix2 r (0 : Fin 1))
      = Ideal.exp (ms' (ix2 r (0 : Fin 1)) - k0_pay6 (F := Ideal) i x0 x1 ms (ix2 r (0 : Fin 1))) * ls (ix2 r (0 : Fin 1))
        + ∑ q : Fin 512, Ideal.exp (k0_pay5 (F := Ideal) i x0 x1 (ix2 r q) - k0_pay6 (F := Ideal) i x0 x1 ms (ix2 r (0 : Fin 1))) := by
  unfold k0_pay7
  rw [shapeCast_self, addf_apply, rowSum_apply]
  refine congrArg₂ (· + ·) rfl (Finset.sum_congr rfl fun q _ => ?_)
  show Ideal.exp (k0_pay5 (F := Ideal) i x0 x1 (ix2 r q) - broadcastTo S4096x512 (k0_pay6 (F := Ideal) i x0 x1 ms) broadcasts_S4096x1_S4096x512 (ix2 r q)) = _
  rw [broadcastTo_a1_ab_apply]

end Cert.KernelIdeal.Val

end
-- ==== Proof.Math.Softmax.lean ====
import Idealize.ShloMosaic.PureOps.Ideal
import Mathlib.Data.EReal.Operations
import Mathlib.Data.Finset.Fold
import Mathlib.Data.Fintype.BigOperators
import Mathlib.Algebra.BigOperators.Group.Finset.Basic
import Mathlib.Analysis.SpecialFunctions.Exp

/-!
# Online log-sum-exp over tiles equals log-softmax

A row of 50000 real logits is padded with −∞ to 50176 = 98 · 512 columns and read tile by
tile. The running maximum and the running sum of exponentials (rescaled to the new maximum
at each tile) end, after the last tile, at the maximum and the sum of exponentials of the
whole row; hence the two log-softmax expressions agree on the extended reals.
-/

open Idealize.ShloMosaic
namespace Cert.Softmax
noncomputable section

/-- the row's logits padded to 50176 columns: real below 50000, −∞ from there on -/
def X (x : ℕ → ℝ) (j : ℕ) : EReal := if j < 50000 then ((x j : ℝ) : EReal) else ⊥
def tileMax (x : ℕ → ℝ) (n : ℕ) : EReal := (Finset.univ : Finset (Fin 512)).fold max (⊥ : EReal) (fun q => X x (512 * n + q.val))
def tileSum (x : ℕ → ℝ) (n : ℕ) (μ : EReal) : EReal := ∑ q : Fin 512, Ideal.exp (X x (512 * n + q.val) - μ)
/-- the running maximum after tile n (the store starts at −∞) -/
def mAt (x : ℕ → ℝ) : ℕ → EReal
  | 0 => max ⊥ (tileMax x 0)
  | n + 1 => max (mAt x n) (tileMax x (n + 1))
/-- the running sum after tile n (the store starts at 0), rescaled to the new maximum at every tile -/
def lAt (x : ℕ → ℝ) : ℕ → EReal
  | 0 => Ideal.exp (⊥ - mAt x 0) * 0 + tileSum x 0 (mAt x 0)
  | n + 1 => Ideal.exp (mAt x n - mAt x (n + 1)) * lAt x n + tileSum x (n + 1) (mAt x (n + 1))
def refMax (x : ℕ → ℝ) : EReal := max ⊥ ((Finset.univ : Finset (Fin 50000)).fold max (⊥ : EReal) (fun k => ((x k.val : ℝ) : EReal)))
def refSum (x : ℕ → ℝ) : EReal := 0 + ∑ k : Fin 50000, Ideal.exp (((x k.val : ℝ) : EReal) - refMax x)

/-! ### The running maximum -/

theorem X_lt_top (x : ℕ → ℝ) (j : ℕ) : X x j < ⊤ := by
  unfold X
  split_ifs
  · exact EReal.coe_lt_top _
  · exact bot_lt_top

theorem tileMax_le_iff (x : ℕ → ℝ) (n : ℕ) (c : EReal) :
    tileMax x n ≤ c ↔ ∀ q : Fin 512, X x (512 * n + q.val) ≤ c := by
  simp [tileMax, Finset.fold_max_le]

theorem tileMax_lt_top (x : ℕ → ℝ) (n : ℕ) : tileMax x n < ⊤ := by
  unfold tileMax
  rw [Finset.fold_max_lt]
  exact ⟨bot_lt_top, fun q _ => X_lt_top x _⟩

/-- the running maximum after tile n is the least upper bound of the first 512 (n+1)
padded columns -/
theorem mAt_le_iff (x : ℕ → ℝ) (n : ℕ) (c : EReal) :
    mAt x n ≤ c ↔ ∀ j, j < 512 * (n + 1) → X x j ≤ c := by
  induction n with
  | zero =>
    simp only [mAt, max_le_iff, bot_le, true_and, tileMax_le_iff]
    constructor
    · intro h j hj
      have := h ⟨j, by omega⟩
      simpa using this
    · intro h q
      exact h _ (by have := q.isLt; omega)
  | succ n ih =>
    simp only [mAt, max_le_iff, ih, tileMax_le_iff]
    constructor
    · rintro ⟨h1, h2⟩ j hj
      by_cases hlt : j < 512 * (n + 1)
      · exact h1 j hlt
      · have := h2 ⟨j - 512 * (n + 1), by omega⟩
        have e : 512 * (n + 1) + (j - 512 * (n + 1)) = j := by omega
        simpa [e] using this
    · intro h
      exact ⟨fun j hj => h j (by omega), fun q => h _ (by have := q.isLt; omega)⟩

theorem mAt_lt_top (x : ℕ → ℝ) (n : ℕ) : mAt x n < ⊤ := by
  induction n with
  | zero => exact max_lt bot_lt_top (tileMax_lt_top x 0)
  | succ n ih => exact max_lt ih (tileMax_lt_top x (n + 1))

theorem bot_lt_mAt (x : ℕ → ℝ) (n : ℕ) : ⊥ < mAt x n := by
  have h : X x 0 ≤ mAt x n := (mAt_le_iff x n (mAt x n)).1 le_rfl 0 (by omega)
  have h0 : X x 0 = ((x 0 : ℝ) : EReal) := by simp [X]
  rw [h0] at h
  exact lt_of_lt_of_le (EReal.bot_lt_coe _) h

/-- the running maximum is a real number -/
theorem mAt_real (x : ℕ → ℝ) (n : ℕ) : ∃ μ : ℝ, mAt x n = (μ : EReal) :=
  ⟨(mAt x n).toReal, (EReal.coe_toReal (mAt_lt_top x n).ne (bot_lt_mAt x n).ne').symm⟩

theorem refMax_le_iff (x : ℕ → ℝ) (c : EReal) :
    refMax x ≤ c ↔ ∀ k : Fin 50000, ((x k.val : ℝ) : EReal) ≤ c := by
  simp [refMax, Finset.fold_max_le]

/-- after the last tile the running maximum is the maximum of the row -/
theorem mAt_last (x : ℕ → ℝ) : mAt x 97 = refMax x := by
  apply eq_of_forall_ge_iff
  intro c
  rw [mAt_le_iff, refMax_le_iff]
  constructor
  · intro h k
    have := h k.val (by have := k.isLt; omega)
    simpa [X, k.isLt] using this
  · intro h j _
    unfold X
    split_ifs with hj
    · exact h ⟨j, hj⟩
    · exact bot_le

/-! ### The running sum -/

/-- the exponential of a padded column relative to a real level μ: zero on the padding -/
def E (x : ℕ → ℝ) (μ : ℝ) (j : ℕ) : ℝ := if j < 50000 then Real.exp (x j - μ) else 0

/-- the sum of the exponentials of the first N padded columns relative to μ -/
def S (x : ℕ → ℝ) (μ : ℝ) (N : ℕ) : ℝ := ∑ j ∈ Finset.range N, E x μ j

theorem exp_X_sub (x : ℕ → ℝ) (μ : ℝ) (j : ℕ) :
    Ideal.exp (X x j - (μ : EReal)) = ((E x μ j : ℝ) : EReal) := by
  unfold X E
  split_ifs
  · rw [← EReal.coe_sub, Ideal.exp_coe]
  · rw [EReal.bot_sub, Ideal.exp_bot, EReal.coe_zero]

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem tileSum_eq (x : ℕ → ℝ) (n : ℕ) (μ : ℝ) :
    tileSum x n (μ : EReal) = ((∑ q : Fin 512, E x μ (512 * n + q.val) : ℝ) : EReal) := by
  simp only [tileSum, exp_X_sub, coe_sum]

theorem S_tile (x : ℕ → ℝ) (μ : ℝ) (n : ℕ) :
    S x μ (512 * (n + 1)) = S x μ (512 * n) + ∑ q : Fin 512, E x μ (512 * n + q.val) := by
  unfold S
  rw [Nat.mul_succ, Finset.sum_range_add, Fin.sum_univ_eq_sum_range (fun i => E x μ (512 * n + i)) 512]

theorem E_rescale (x : ℕ → ℝ) (a b : ℝ) (j : ℕ) : Real.exp (a - b) * E x a j = E x b j := by
  unfold E
  split_ifs
  · rw [← Real.exp_add]
    congr 1
    ring
  · exact mul_zero _

theorem S_rescale (x : ℕ → ℝ) (a b : ℝ) (N : ℕ) : Real.exp (a - b) * S x a N = S x b N := by
  unfold S
  rw [Finset.mul_sum]
  exact Finset.sum_congr rfl (fun j _ => E_rescale x a b j)

/-- the running sum after tile n is the sum of the exponentials of the first 512 (n+1)
padded columns relative to the running maximum -/
theorem lAt_eq (x : ℕ → ℝ) (n : ℕ) :
    ∀ μ : ℝ, mAt x n = (μ : EReal) → lAt x n = ((S x μ (512 * (n + 1)) : ℝ) : EReal) := by
  induction n with
  | zero =>
    intro μ hμ
    have hS : S x μ (512 * (0 + 1)) = ∑ q : Fin 512, E x μ (512 * 0 + q.val) := by
      rw [S_tile]
      simp [S]
    rw [lAt, hμ, mul_zero, zero_add, tileSum_eq, hS]
  | succ n ih =>
    intro μ hμ
    obtain ⟨ν, hν⟩ := mAt_real x n
    rw [lAt, hμ, hν, ih ν hν, tileSum_eq, ← EReal.coe_sub, Ideal.exp_coe, ← EReal.coe_mul,
      ← EReal.coe_add, S_rescale, ← S_tile]

/-- the sum of exponentials of the row relative to its maximum, as a real sum -/
theorem refSum_eq (x : ℕ → ℝ) (μ : ℝ) (hμ : refMax x = (μ : EReal)) :
    refSum x = ((S x μ (512 * (97 + 1)) : ℝ) : EReal) := by
  have h1 : S x μ (512 * (97 + 1)) = ∑ k : Fin 50000, Real.exp (x k.val - μ) := by
    have e : 512 * (97 + 1) = 50000 + 176 := by norm_num
    unfold S
    rw [e, Finset.sum_range_add, Fin.sum_univ_eq_sum_range (fun i => Real.exp (x i - μ)) 50000]
    have hz : ∑ i ∈ Finset.range 176, E x μ (50000 + i) = 0 := by
      apply Finset.sum_eq_zero
      intro i _
      unfold E
      rw [if_neg (by omega)]
    rw [hz, add_zero]
    apply Finset.sum_congr rfl
    intro i hi
    unfold E
    rw [if_pos (Finset.mem_range.1 hi)]
  rw [refSum, hμ, zero_add, h1, ← coe_sum]
  apply Finset.sum_congr rfl
  intro k _
  rw [← EReal.coe_sub, Ideal.exp_coe]

/-- after the last tile the running sum is the sum of exponentials of the row -/
theorem lAt_last (x : ℕ → ℝ) : lAt x 97 = refSum x := by
  obtain ⟨μ, hμ⟩ := mAt_real x 97
  rw [lAt_eq x 97 μ hμ, refSum_eq x μ (by rw [← mAt_last, hμ])]

/-! ### The two log-softmax expressions -/

theorem sub_add_eq (a b : ℝ) (y : EReal) :
    (a : EReal) - ((b : EReal) + y) = ((a : EReal) - (b : EReal)) - y := by
  induction y using EReal.rec with
  | bot => rw [EReal.add_bot, ← EReal.coe_sub, EReal.coe_sub_bot, EReal.coe_sub_bot]
  | coe r => exact_mod_cast (by ring : a - (b + r) = a - b - r)
  | top => rw [EReal.coe_add_top, ← EReal.coe_sub, EReal.sub_top, EReal.sub_top]

/-- online log-sum-exp over the 98 tiles = log-softmax over the 50000 columns -/
theorem online_eq (x : ℕ → ℝ) (j : ℕ) :
    ((x j : ℝ) : EReal) - (mAt x 97 + Ideal.log (lAt x 97)) = (((x j : ℝ) : EReal) - refMax x) - Ideal.log (refSum x) := by
  obtain ⟨μ, hμ⟩ := mAt_real x 97
  rw [lAt_last, ← mAt_last, hμ, sub_add_eq]

end
end Cert.Softmax
-- ==== Proof.Val.Row.lean ====
import proofs.«154023_j17042430230825_1_alg».proof.Proof.Math.Softmax
import Mathlib.Data.EReal.Operations
import Mathlib.Data.Finset.Fold
import Mathlib.Algebra.BigOperators.Group.Finset.Basic

/-!
# One row of the online log-sum-exp

A sequence of running maxima and running sums that obeys the tile-by-tile recurrences over
the padded row is the pair (mAt, lAt); a dot product of real vectors on the extended reals is
the real dot product; and the final expression is the row's log-softmax.
-/

open Idealize.ShloMosaic Cert.Softmax
namespace Cert.Row

theorem X_lt (x : ℕ → ℝ) (j : ℕ) (h : j < 50000) : X x j = ((x j : ℝ) : EReal) := by
  unfold X
  rw [if_pos h]

theorem X_ge (x : ℕ → ℝ) (j : ℕ) (h : ¬ j < 50000) : X x j = ⊥ := by
  unfold X
  rw [if_neg h]

/-- a tile read column by column has the tile's maximum -/
theorem fold_tile (x : ℕ → ℝ) (n : ℕ) (p : Fin 512 → EReal)
    (hp : ∀ q : Fin 512, p q = X x (512 * n + q.val)) :
    (Finset.univ : Finset (Fin 512)).fold max (⊥ : EReal) p = tileMax x n := by
  have e : p = fun q => X x (512 * n + q.val) := funext hp
  rw [e]
  rfl

/-- a tile read column by column has the tile's sum of exponentials -/
theorem sum_tile (x : ℕ → ℝ) (n : ℕ) (p : Fin 512 → EReal)
    (hp : ∀ q : Fin 512, p q = X x (512 * n + q.val)) (μ : EReal) :
    ∑ q : Fin 512, Ideal.exp (p q - μ) = tileSum x n μ := by
  unfold tileSum
  exact Finset.sum_congr rfl (fun q _ => by rw [hp q])

/-- running maxima and sums that obey the recurrences are mAt and lAt -/
theorem scratch_eq (x : ℕ → ℝ) (P : ℕ → Fin 512 → EReal) (hP : ∀ n, n < 98 → ∀ q : Fin 512, P n q = X x (512 * n + q.val)) (ms ls : ℕ → EReal)
    (hm0 : ms 0 = max ⊥ ((Finset.univ : Finset (Fin 512)).fold max (⊥ : EReal) (P 0)))
    (hl0 : ls 0 = Ideal.exp (⊥ - ms 0) * 0 + ∑ q : Fin 512, Ideal.exp (P 0 q - ms 0))
    (hms : ∀ n, n + 1 < 98 → ms (n + 1) = max (ms n) ((Finset.univ : Finset (Fin 512)).fold max (⊥ : EReal) (P (n + 1))))
    (hls : ∀ n, n + 1 < 98 → ls (n + 1) = Ideal.exp (ms n - ms (n + 1)) * ls n + ∑ q : Fin 512, Ideal.exp (P (n + 1) q - ms (n + 1))) :
    ∀ n, n < 98 → ms n = mAt x n ∧ ls n = lAt x n := by
  intro n
  induction n with
  | zero =>
    intro h0
    have e1 : ms 0 = mAt x 0 := by
      rw [hm0, fold_tile x 0 (P 0) (hP 0 h0)]
      rfl
    refine ⟨e1, ?_⟩
    rw [hl0, sum_tile x 0 (P 0) (hP 0 h0), e1]
    rfl
  | succ n ih =>
    intro hn
    obtain ⟨i1, i2⟩ := ih (by omega)
    have e1 : ms (n + 1) = mAt x (n + 1) := by
      rw [hms n hn, fold_tile x (n + 1) (P (n + 1)) (hP (n + 1) hn), i1]
      rfl
    refine ⟨e1, ?_⟩
    rw [hls n hn, sum_tile x (n + 1) (P (n + 1)) (hP (n + 1) hn), e1, i1, i2]
    rfl

/-- a dot product of real vectors, taken on the extended reals, is the real dot product -/
theorem sum_mul_coe (p w : Fin 128 → ℝ) : (∑ k : Fin 128, ((p k : ℝ) : EReal) * ((w k : ℝ) : EReal)) = (((∑ k : Fin 128, p k * w k) : ℝ) : EReal) := by
  rw [← coe_sum]
  exact Finset.sum_congr rfl (fun k _ => (EReal.coe_mul _ _).symm)

/-- the final expression is the row's log-softmax -/
theorem final_eq (x : ℕ → ℝ) (j : ℕ) (m l : EReal) (hm : m = mAt x 97) (hl : l = lAt x 97) : ((x j : ℝ) : EReal) - (m + Ideal.log l) = (((x j : ℝ) : EReal) - refMax x) - Ideal.log (refSum x) := by
  rw [hm, hl]
  exact online_eq x j

/-- a row of real entries, as extended reals, is the coercion of a real sequence -/
theorem exists_real_row (lgr : Fin 50000 → EReal) (hreal : ∀ k, ∃ y : ℝ, lgr k = (y : EReal)) :
    ∃ x : ℕ → ℝ, ∀ k : Fin 50000, lgr k = ((x k.val : ℝ) : EReal) := by
  choose y hy using hreal
  refine ⟨fun j => if h : j < 50000 then y ⟨j, h⟩ else 0, fun k => ?_⟩
  show lgr k = (((if h : k.val < 50000 then y ⟨k.val, h⟩ else 0) : ℝ) : EReal)
  rw [dif_pos k.isLt]
  exact hy k

/-- the online log-sum-exp of a row of real entries, read tile by tile with the padding
masked to −∞, is the row's log-softmax -/
theorem row_final (lgr : Fin 50000 → EReal) (hreal : ∀ k, ∃ y : ℝ, lgr k = (y : EReal))
    (P : ℕ → Fin 512 → EReal) (hP : ∀ n, n < 98 → ∀ q : Fin 512, P n q = if h : 512 * n + q.val < 50000 then lgr ⟨512 * n + q.val, h⟩ else ⊥)
    (ms ls : ℕ → EReal)
    (hm0 : ms 0 = max ⊥ ((Finset.univ : Finset (Fin 512)).fold max (⊥ : EReal) (P 0)))
    (hl0 : ls 0 = Ideal.exp (⊥ - ms 0) * 0 + ∑ q : Fin 512, Ideal.exp (P 0 q - ms 0))
    (hms : ∀ n, n + 1 < 98 → ms (n + 1) = max (ms n) ((Finset.univ : Finset (Fin 512)).fold max (⊥ : EReal) (P (n + 1))))
    (hls : ∀ n, n + 1 < 98 → ls (n + 1) = Ideal.exp (ms n - ms (n + 1)) * ls n + ∑ q : Fin 512, Ideal.exp (P (n + 1) q - ms (n + 1)))
    (j : Fin 50000) :
    lgr j - (ms 97 + Ideal.log (ls 97))
      = (lgr j - max ⊥ ((Finset.univ : Finset (Fin 50000)).fold max (⊥ : EReal) lgr)) - Ideal.log (0 + ∑ k : Fin 50000, Ideal.exp (lgr k - max ⊥ ((Finset.univ : Finset (Fin 50000)).fold max (⊥ : EReal) lgr))) := by
  obtain ⟨x, hx⟩ := exists_real_row lgr hreal
  have hP' : ∀ n, n < 98 → ∀ q : Fin 512, P n q = X x (512 * n + q.val) := by
    intro n hn q
    rw [hP n hn q]
    by_cases h : 512 * n + q.val < 50000
    · rw [dif_pos h, X_lt x _ h, hx ⟨_, h⟩]
    · rw [dif_neg h, X_ge x _ h]
  obtain ⟨em, el⟩ := scratch_eq x P hP' ms ls hm0 hl0 hms hls 97 (by norm_num)
  have key := final_eq x j.val (ms 97) (ls 97) em el
  have hlgr : lgr = fun k : Fin 50000 => ((x k.val : ℝ) : EReal) := funext hx
  subst hlgr
  exact key

end Cert.Row
-- ==== Proof.Val.Scratch.lean ====
import proofs.«154023_j17042430230825_1_alg».proof.Proof.KI.Pieces
import proofs.«154023_j17042430230825_1_alg».proof.Proof.Val.Pay
import proofs.«154023_j17042430230825_1_alg».proof.Proof.Val.Row

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.ShloMosaic.ValueIdx
open Idealize.SL.Sem

variable (V : (c : Dev nD) → (b : Ref sig .tc) → Buf (Elt Ideal) ((c : Thread nD τ).loc b))

/-! # The first region's result, row by row: the log-sum-exp of the row's logits -/

/-- The grid is one-dimensional: a point's one coordinate is its position. -/
theorem coord0 : ∀ t : Fin cfg0.N, ((grid0.coords t) 0).val = t.val :=
  (by decide +kernel : ∀ t : Fin grid0.N, ((grid0.coords t) 0).val = t.val)

/-- Row `r`'s running maximum after point `n` (`⊥` past the grid). -/
def msAt (c : Dev nD) (r : Fin 4096) (n : ℕ) : EReal :=
  if h : n < cfg0.N then (outsAt0 V c n h).2.1 (ix2 r (0 : Fin 1)) else ⊥

/-- Row `r`'s running sum after point `n` (`⊥` past the grid). -/
def lsAt (c : Dev nD) (r : Fin 4096) (n : ℕ) : EReal :=
  if h : n < cfg0.N then (outsAt0 V c n h).2.2 (ix2 r (0 : Fin 1)) else ⊥

/-- Row `r` of tile `n`'s masked logits, column by column (`⊥` past the grid). -/
def PAt (c : Dev nD) (r : Fin 4096) (n : ℕ) (q : Fin 512) : EReal :=
  if h : n < cfg0.N then k0_pay5 (F := Ideal) (grid0.coords ⟨n, h⟩) (iblk0 V c 0 ⟨n, h⟩) (iblk0 V c 1 ⟨n, h⟩) (ix2 r q) else ⊥

theorem msAt_eq (c : Dev nD) (r : Fin 4096) (n : ℕ) (h : n < cfg0.N) :
    msAt V c r n = (outsAt0 V c n h).2.1 (ix2 r (0 : Fin 1)) := by
  unfold msAt; rw [dif_pos h]

theorem lsAt_eq (c : Dev nD) (r : Fin 4096) (n : ℕ) (h : n < cfg0.N) :
    lsAt V c r n = (outsAt0 V c n h).2.2 (ix2 r (0 : Fin 1)) := by
  unfold lsAt; rw [dif_pos h]

theorem PAt_eq (c : Dev nD) (r : Fin 4096) (n : ℕ) (h : n < cfg0.N) :
    PAt V c r n = fun q => k0_pay5 (F := Ideal) (grid0.coords ⟨n, h⟩) (iblk0 V c 0 ⟨n, h⟩) (iblk0 V c 1 ⟨n, h⟩) (ix2 r q) := by
  funext q; unfold PAt; rw [dif_pos h]

/-- After the first point the running maximum is the tile's fold from the reset value, -/
theorem ms_first (c : Dev nD) (r : Fin 4096) (h : 0 < cfg0.N) :
    msAt V c r 0 = k0_pay6 (F := Ideal) (grid0.coords ⟨0, h⟩) (iblk0 V c 0 ⟨0, h⟩) (iblk0 V c 1 ⟨0, h⟩) (k0_pay3 (F := Ideal)) (ix2 r (0 : Fin 1)) := by
  rw [msAt_eq V c r 0 h]
  refine (congrFun (congrArg Prod.fst (sc_zero V c h)) (ix2 r (0 : Fin 1))).trans ?_
  dsimp only
  rw [pay0_1_eq]

/-- and the running sum the tile's rescaled sum from the reset values. -/
theorem ls_first (c : Dev nD) (r : Fin 4096) (h : 0 < cfg0.N) :
    lsAt V c r 0 = k0_pay7 (F := Ideal) (grid0.coords ⟨0, h⟩) (iblk0 V c 0 ⟨0, h⟩) (iblk0 V c 1 ⟨0, h⟩) (k0_pay3 (F := Ideal)) (k0_pay3 (F := Ideal)) (k0_pay4 (F := Ideal)) (ix2 r (0 : Fin 1)) := by
  rw [lsAt_eq V c r 0 h]
  exact congrFun (congrArg Prod.snd (sc_zero V c h)) (ix2 r (0 : Fin 1))

/-- After a later point the running maximum is the tile's fold from what the point before left, -/
theorem ms_next (c : Dev nD) (r : Fin 4096) (n : ℕ) (h : n + 1 < cfg0.N) :
    msAt V c r (n + 1) = k0_pay6 (F := Ideal) (grid0.coords ⟨n + 1, h⟩) (iblk0 V c 0 ⟨n + 1, h⟩) (iblk0 V c 1 ⟨n + 1, h⟩) (outsAt0 V c n (Nat.lt_of_succ_lt h)).2.1 (ix2 r (0 : Fin 1)) := by
  rw [msAt_eq V c r (n + 1) h]
  refine (congrFun (congrArg Prod.fst (sc_succ V c n h)) (ix2 r (0 : Fin 1))).trans ?_
  dsimp only
  rw [pay0_1_eq]

/-- and the running sum the tile's rescaled sum over what the point before left. -/
theorem ls_next (c : Dev nD) (r : Fin 4096) (n : ℕ) (h : n + 1 < cfg0.N) :
    lsAt V c r (n + 1) = k0_pay7 (F := Ideal) (grid0.coords ⟨n + 1, h⟩) (iblk0 V c 0 ⟨n + 1, h⟩) (iblk0 V c 1 ⟨n + 1, h⟩) (outsAt0 V c n (Nat.lt_of_succ_lt h)).2.1 (outsAt0 V c n (Nat.lt_of_succ_lt h)).2.1 (outsAt0 V c n (Nat.lt_of_succ_lt h)).2.2 (ix2 r (0 : Fin 1)) := by
  rw [lsAt_eq V c r (n + 1) h]
  exact congrFun (congrArg Prod.snd (sc_succ V c n h)) (ix2 r (0 : Fin 1))

/-- ROW `r` OF THE FIRST REGION'S RESULT. If the tiles' logits of row `r` are the entries of one row `lgr` of real
    numbers, read tile by tile, then what the last point leaves in the result window at row `r` is the row's
    log-sum-exp: subtracted from an entry it gives the entry's log-softmax. -/
theorem lse_row (c : Dev nD) (r : Fin 4096) (lgr : Fin 50000 → EReal) (hreal : ∀ k, ∃ y : ℝ, lgr k = (y : EReal))
    (hlog : ∀ (t : Fin cfg0.N) (q : Fin 512) (h : 512 * t.val + q.val < 50000), logitT (iblk0 V c 0 t) (iblk0 V c 1 t) r q = lgr ⟨512 * t.val + q.val, h⟩)
    (h97 : 97 < cfg0.N) (j : Fin 50000) :
    lgr j - (outsAt0 V c 97 h97).1 (ix2 r (0 : Fin 1))
      = (lgr j - max ⊥ ((Finset.univ : Finset (Fin 50000)).fold max (⊥ : EReal) lgr)) - Ideal.log (0 + ∑ k : Fin 50000, Ideal.exp (lgr k - max ⊥ ((Finset.univ : Finset (Fin 50000)).fold max (⊥ : EReal) lgr))) := by
  have hN : cfg0.N = 98 := N_0
  have h0' : 0 < cfg0.N := lt_trans (by decide) h97
  have hP : ∀ n, n < 98 → ∀ q : Fin 512, PAt V c r n q = if h : 512 * n + q.val < 50000 then lgr ⟨512 * n + q.val, h⟩ else ⊥ := by
    intro n hn q
    have hn' : n < cfg0.N := lt_of_lt_of_eq hn hN.symm
    have e0 : ((grid0.coords ⟨n, hn'⟩) 0).val = n := coord0 ⟨n, hn'⟩
    rw [PAt_eq V c r n hn']
    dsimp only
    rw [pay0_5_apply, e0]
    by_cases h : 512 * n + q.val < 50000
    · rw [if_pos h, dif_pos h]
      exact hlog ⟨n, hn'⟩ q h
    · rw [if_neg h, dif_neg h]
  have hm0 : msAt V c r 0 = max ⊥ ((Finset.univ : Finset (Fin 512)).fold max (⊥ : EReal) (PAt V c r 0)) := by
    rw [PAt_eq V c r 0 h0', ms_first V c r h0', pay0_6_apply, pay0_3_apply]
  have hl0 : lsAt V c r 0 = Ideal.exp (⊥ - msAt V c r 0) * 0 + ∑ q : Fin 512, Ideal.exp (PAt V c r 0 q - msAt V c r 0) := by
    rw [PAt_eq V c r 0 h0', ms_first V c r h0', ls_first V c r h0', pay0_7_apply, pay0_3_apply, pay0_4_apply]
  have hms : ∀ n, n + 1 < 98 → msAt V c r (n + 1) = max (msAt V c r n) ((Finset.univ : Finset (Fin 512)).fold max (⊥ : EReal) (PAt V c r (n + 1))) := by
    intro n hn
    have hn1 : n + 1 < cfg0.N := lt_of_lt_of_eq hn hN.symm
    rw [PAt_eq V c r (n + 1) hn1, ms_next V c r n hn1, msAt_eq V c r n (Nat.lt_of_succ_lt hn1), pay0_6_apply]
  have hls : ∀ n, n + 1 < 98 → lsAt V c r (n + 1) = Ideal.exp (msAt V c r n - msAt V c r (n + 1)) * lsAt V c r n + ∑ q : Fin 512, Ideal.exp (PAt V c r (n + 1) q - msAt V c r (n + 1)) := by
    intro n hn
    have hn1 : n + 1 < cfg0.N := lt_of_lt_of_eq hn hN.symm
    rw [PAt_eq V c r (n + 1) hn1, ls_next V c r n hn1, ms_next V c r n hn1, msAt_eq V c r n (Nat.lt_of_succ_lt hn1), lsAt_eq V c r n (Nat.lt_of_succ_lt hn1), pay0_7_apply]
  rw [congrFun (lse_last V c h97) (ix2 r (0 : Fin 1)), pay0_2_apply, ← msAt_eq V c r 97 h97, ← lsAt_eq V c r 97 h97]
  exact Cert.Row.row_final lgr hreal (PAt V c r) hP (msAt V c r) (lsAt V c r) hm0 hl0 hms hls j

end Cert.KernelIdeal.Val

end
-- ==== Proof.Val.RefReal.lean ====
import proofs.«154023_j17042430230825_1_alg».proof.Proof.Val.RefRead
import proofs.«154023_j17042430230825_1_alg».proof.Proof.Val.Row
import Idealize.ShloMosaic.Lib.ValueIdx
import Idealize.ShloMosaic.PureOps.Ideal.Laws
import Mathlib.Data.EReal.Operations

/-!
# The reference's logits are real

The pooled rows are a sum of ten gathered entries of the first float input divided by ten,
and a logit is the dot product of a pooled row with a row of the second float input: when
both inputs have real entries, so have the pooled rows and the logits.
-/

noncomputable section

namespace Cert.ReferenceIdeal.RefVal

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-- the logit of row r and column j: the pooled row r against row j of the second input -/
def lg (x0 : (⟨S4096x10, .i32⟩ : BufTy).Contents (Elt Ideal)) (x1 x2 : (⟨S50000x128, .f32⟩ : BufTy).Contents (Elt Ideal)) (r : Fin 4096) (j : Fin 50000) : EReal := ∑ k : Fin 128, (val_main_v9 (F := Ideal) x0 x1) (ix2 r k) * x2 (ix2 j k)

/-- the pattern 0x41200000 denotes ten -/
theorem ofBits_ten : Ideal.ofBits .f32 0x41200000#32 = ((10 : ℝ) : EReal) := by
  simp [Ideal.ofBits, Ideal.ieee, -EReal.coe_mul]
  norm_num

/-- every gathered entry is an entry of the first float input -/
theorem v6_real (x0 : (⟨S4096x10, .i32⟩ : BufTy).Contents (Elt Ideal)) (x1 : (⟨S50000x128, .f32⟩ : BufTy).Contents (Elt Ideal))
    (h1 : ∀ i, ∃ e : ℝ, x1 i = (e : EReal)) : ∀ i, ∃ e : ℝ, val_main_v6 (F := Ideal) x0 x1 i = (e : EReal) := by
  intro i
  unfold val_main_v6 Host.gather
  exact h1 _

/-- a sum of ten real entries is real -/
theorem v7_real (x0 : (⟨S4096x10, .i32⟩ : BufTy).Contents (Elt Ideal)) (x1 : (⟨S50000x128, .f32⟩ : BufTy).Contents (Elt Ideal))
    (h1 : ∀ i, ∃ e : ℝ, x1 i = (e : EReal)) : ∀ i, ∃ e : ℝ, val_main_v7 (F := Ideal) x0 x1 i = (e : EReal) := by
  intro i
  choose f hf using v6_real x0 x1 h1
  rw [val_main_v7_apply]
  have hz : (val_main_cst (F := Ideal)) (Shape.Idx.first h_S_) = (0 : EReal) := Ideal.ofBits_zero_f32
  rw [hz, zero_add]
  refine ⟨∑ k : Fin 10, f (idx_main_v7 i k), ?_⟩
  rw [← Cert.Softmax.coe_sum]
  exact Finset.sum_congr rfl (fun k _ => hf _)

theorem pooled_real (x0 : (⟨S4096x10, .i32⟩ : BufTy).Contents (Elt Ideal)) (x1 : (⟨S50000x128, .f32⟩ : BufTy).Contents (Elt Ideal)) (h1 : ∀ i, ∃ e : ℝ, x1 i = (e : EReal)) : ∀ i, ∃ p : ℝ, val_main_v9 (F := Ideal) x0 x1 i = (p : EReal) := by
  intro i
  obtain ⟨e, he⟩ := v7_real x0 x1 h1 i
  have h8 : val_main_v8 (F := Ideal) i = ((10 : ℝ) : EReal) := by
    rw [val_main_v8_apply]
    exact ofBits_ten
  refine ⟨e * (1 / 10 : ℝ), ?_⟩
  rw [val_main_v9_apply, he, h8]
  show Ideal.div (e : EReal) ((10 : ℝ) : EReal) = _
  rw [Ideal.div_coe (by norm_num : (10 : ℝ) ≠ 0), EReal.coe_mul]

theorem lg_real (x0 : (⟨S4096x10, .i32⟩ : BufTy).Contents (Elt Ideal)) (x1 x2 : (⟨S50000x128, .f32⟩ : BufTy).Contents (Elt Ideal)) (h1 : ∀ i, ∃ e : ℝ, x1 i = (e : EReal)) (h2 : ∀ i, ∃ e : ℝ, x2 i = (e : EReal)) (r : Fin 4096) (j : Fin 50000) : ∃ y : ℝ, lg x0 x1 x2 r j = (y : EReal) := by
  choose p hp using pooled_real x0 x1 h1
  choose w hw using h2
  refine ⟨∑ k : Fin 128, p (ix2 r k) * w (ix2 j k), ?_⟩
  unfold lg
  rw [← Cert.Row.sum_mul_coe (fun k => p (ix2 r k)) (fun k => w (ix2 j k))]
  exact Finset.sum_congr rfl (fun k _ => by rw [hp, hw])

end Cert.ReferenceIdeal.RefVal

end
-- ==== Proof.Val.Logit.lean ====
import proofs.«154023_j17042430230825_1_alg».proof.Proof.Val.Pay
import proofs.«154023_j17042430230825_1_alg».proof.Proof.Val.RefReal

/-!
# The kernel's tile logits are the reference's logits

A tile of the kernel's product reads row (512 n + q) mod 50176 of the padded second operand;
below column 50000 that row is the row of the reference's second input, and the first
operand is the reference's pooled rows, so the two inner products agree term by term.
-/

noncomputable section

open scoped BigOperators

namespace Cert.KernelIdeal.Val

open Cert.KernelIdeal Cert.ReferenceIdeal.RefVal Cert.ReferenceIdeal.ReadP Idealize.ShloMosaic Idealize.ShloMosaic.ValueIdx

theorem logit_tile (A9 : Vec Ideal Cert.KernelIdeal.S4096x128 .f32) (A10 : Vec Ideal Cert.KernelIdeal.S50176x128 .f32)
    (x0 : (⟨Cert.ReferenceIdeal.S4096x10, .i32⟩ : BufTy).Contents (Elt Ideal)) (x1 x2 : (⟨Cert.ReferenceIdeal.S50000x128, .f32⟩ : BufTy).Contents (Elt Ideal))
    (hA9 : (A9 : Cert.KernelIdeal.S4096x128.Idx → EReal) = val_main_v9 (F := Ideal) x0 x1)
    (hA10 : ∀ (j : Fin 50176) (k : Fin 128), A10 (ix2 j k) = if h : j.val < 50000 then x2 (ix2 ⟨j.val, h⟩ k) else 0)
    (r : Fin 4096) (n : ℕ) (q : Fin 512) (h : 512 * n + q.val < 50000) :
    logitT A9 (fun y => A10 (ix2 ⟨(512 * n + (y 0).val) % 50176, Nat.mod_lt _ (by norm_num)⟩ (y 1))) r q = lg x0 x1 x2 r ⟨512 * n + q.val, h⟩ := by
  have hmod : (512 * n + q.val) % 50176 = 512 * n + q.val := Nat.mod_eq_of_lt (by omega)
  have aux : ∀ (k : Fin 128) (jj : Fin 50176), jj.val = 512 * n + q.val →
      A10 (ix2 jj k) = x2 (ix2 ⟨512 * n + q.val, h⟩ k) := by
    intro k jj hj
    rw [hA10 jj k, dif_pos (by omega)]
    exact congrArg (fun t => x2 (ix2 t k)) (Fin.ext hj)
  unfold logitT lg
  refine Finset.sum_congr rfl fun k _ => ?_
  have e1 : A9 (ix2 r k) = val_main_v9 (F := Ideal) x0 x1 (ix2 r k) := congrFun hA9 (ix2 r k)
  have e2 := aux k ⟨(512 * n + q.val) % 50176, Nat.mod_lt _ (by norm_num)⟩ hmod
  show A9 (ix2 r k) * A10 (ix2 ⟨(512 * n + q.val) % 50176, Nat.mod_lt _ (by norm_num)⟩ k) = _
  rw [e1, e2]

end Cert.KernelIdeal.Val

end
-- ==== Proof.Val.Finite.lean ====
import proofs.«154023_j17042430230825_1_alg».proof.Pre_finite_inputs
import Idealize.ShloMosaic.PureOps.Ideal
import Idealize.ShloMosaic.PureOps.Ideal.Laws
import Idealize.ShloMosaic.Lib.ReduceAll
import Idealize.ShloMosaic.Lib.ValueIdx
import Mathlib.Data.EReal.Operations

/-!
# From the precondition to real entries

The precondition says, of each of the two float inputs, that every entry's absolute value is
below +∞. On the extended reals an absolute value max a (-a) is below ⊤ exactly when a is
neither ⊤ nor ⊥, that is, when a is a real number.
-/

open Idealize.ShloMosaic
namespace Cert.Finite

/-- the pattern 0x7F800000 denotes +∞ -/
theorem ofBits_inf : Ideal.ofBits .f32 0x7F800000#32 = ⊤ := by simp [Ideal.ofBits, Ideal.ieee]

/-- an extended real whose absolute value compares below +∞ is a real number -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) :
    ∃ e : ℝ, a = (e : EReal) := by
  change Ideal.cmp .olt (max a (-a)) (Ideal.ofBits .f32 0x7F800000#32) = 1#1 at h
  rw [ofBits_inf] at h
  unfold Ideal.cmp at h
  induction a using EReal.rec with
  | bot => simp at h
  | coe r => exact ⟨r, rfl⟩
  | top => simp at h

instance : Subsingleton Cert.Pre_finite_inputs.S_.Idx := ⟨fun a b => funext fun d => d.elim0⟩

/-- under the precondition every entry of the two float inputs is a real number -/
theorem real_of_pre [Cert.Pre_finite_inputs.Facts] (x0 : IVec Cert.Pre_finite_inputs.S4096x10 32) (x1 x2 : FVec Ideal Cert.Pre_finite_inputs.S50000x128 .f32) (h : Cert.Pre_finite_inputs.fn (F := Ideal) x0 x1 x2 = (fun _ => 1#1)) : (∀ i, ∃ e : ℝ, x1 i = (e : EReal)) ∧ (∀ i, ∃ e : ℝ, x2 i = (e : EReal)) := by
  have h0 := congrFun h ValueIdx.ix0
  dsimp only [Cert.Pre_finite_inputs.fn] at h0
  obtain ⟨ha, hb⟩ := IntOp.andi_eq_one.1 h0
  constructor
  · intro i
    exact real_of_abs_lt_inf (x1 i) (Host.reduce_andi_all _ _ _ _ _ ha i)
  · intro i
    exact real_of_abs_lt_inf (x2 i) (Host.reduce_andi_all _ _ _ _ _ hb i)

end Cert.Finite
-- ==== Proof.Val.RefRun.lean ====
import proofs.«154023_j17042430230825_1_alg».proof.Proof.Val.RefRead

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's own sixteen operations, in order: the pooled activations and their products with the weight rows (the logits). -/
abbrev opsA : List (HloOp τ sig (Elt F)) :=
  [ nullary main_c (constantI S_ 32 0#32),
    unary main_c main_v0 (broadcastInDim S4096x10 ![] bcast_S_S4096x10 : (⟨S_, .i32⟩ : BufTy).Contents (Elt F) → (⟨S4096x10, .i32⟩ : BufTy).Contents (Elt F)),
    binary main_arg0 main_v0 main_v1 (cmpi .slt : (⟨S4096x10, .i32⟩ : BufTy).Contents (Elt F) → (⟨S4096x10, .i32⟩ : BufTy).Contents (Elt F) → (⟨S4096x10, .i1⟩ : BufTy).Contents (Elt F)),
    nullary main_c_0 (constantI S_ 32 50000#32),
    unary main_c_0 main_v2 (broadcastInDim S4096x10 ![] bcast_S_S4096x10 : (⟨S_, .i32⟩ : BufTy).Contents (Elt F) → (⟨S4096x10, .i32⟩ : BufTy).Contents (Elt F)),
    binary main_arg0 main_v2 main_v3 (addi : (⟨S4096x10, .i32⟩ : BufTy).Contents (Elt F) → (⟨S4096x10, .i32⟩ : BufTy).Contents (Elt F) → (⟨S4096x10, .i32⟩ : BufTy).Contents (Elt F)),
    ternary main_v1 main_v3 main_arg0 main_v4 (select : (⟨S4096x10, .i1⟩ : BufTy).Contents (Elt F) → (⟨S4096x10, .i32⟩ : BufTy).Contents (Elt F) → (⟨S4096x10, .i32⟩ : BufTy).Contents (Elt F) → (⟨S4096x10, .i32⟩ : BufTy).Contents (Elt F)),
    unary main_v4 main_v5 (broadcastInDim S4096x10x1 ![0, 1] bcast_S4096x10_S4096x10x1_0_1 : (⟨S4096x10, .i32⟩ : BufTy).Contents (Elt F) → (⟨S4096x10x1, .i32⟩ : BufTy).Contents (Elt F)),
    binary main_arg1 main_v5 main_v6 ((fun x i => Host.gather gather_S50000x128_S4096x10x1_S4096x10x128_2_0_n_n_0_2_1128 x i) : (⟨S50000x128, .f32⟩ : BufTy).Contents (Elt F) → (⟨S4096x10x1, .i32⟩ : BufTy).Contents (Elt F) → (⟨S4096x10x128, .f32⟩ : BufTy).Contents (Elt F)),
    nullary main_cst (constant S_ .f32 0x00000000#32),
    binary main_v6 main_cst main_v7 ((fun x v => Host.reduceAdd x v reducesTo_S4096x10x128_S4096x128_d1 h_S_) : (⟨S4096x10x128, .f32⟩ : BufTy).Contents (Elt F) → (⟨S_, .f32⟩ : BufTy).Contents (Elt F) → (⟨S4096x128, .f32⟩ : BufTy).Contents (Elt F)),
    nullary main_cst_1 (constant S_ .f32 0x41200000#32),
    unary main_cst_1 main_v8 (broadcastInDim S4096x128 ![] bcast_S_S4096x128 : (⟨S_, .f32⟩ : BufTy).Contents (Elt F) → (⟨S4096x128, .f32⟩ : BufTy).Contents (Elt F)),
    binary main_v7 main_v8 main_v9 (Host.divf : (⟨S4096x128, .f32⟩ : BufTy).Contents (Elt F) → (⟨S4096x128, .f32⟩ : BufTy).Contents (Elt F) → (⟨S4096x128, .f32⟩ : BufTy).Contents (Elt F)),
    unary main_arg2 main_v10 ((transpose S128x50000 [1, 0] · transposes_S50000x128_S128x50000_1_0) : (⟨S50000x128, .f32⟩ : BufTy).Contents (Elt F) → (⟨S128x50000, .f32⟩ : BufTy).Contents (Elt F)),
    binary main_v9 main_v10 main_v11 ((fun l r => Host.dotGeneral dot_S4096x128_S128x50000_S4096x50000_1_0_0_1_n_n none l r) : (⟨S4096x128, .f32⟩ : BufTy).Contents (Elt F) → (⟨S128x50000, .f32⟩ : BufTy).Contents (Elt F) → (⟨S4096x50000, .f32⟩ : BufTy).Contents (Elt F)) ]

/-- The fifteen operations of the called log-softmax, in order, at its one call: they read the logits and write the result. -/
abbrev opsB : List (HloOp τ sig (Elt F)) :=
  [ TRef.nullary (TRef.of (T := ⟨S_, .f32⟩) main_call0_cst) (constant S_ .f32 0xFF800000#32),
    TRef.binary (TRef.of (T := ⟨S4096x50000, .f32⟩) main_v11) (TRef.of (T := ⟨S_, .f32⟩) main_call0_cst) (TRef.of (T := ⟨S4096, .f32⟩) main_call0_v0) (fun x v => Host.reduce FloatOps.maximumf x v reducesTo_S4096x50000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50000, .f32⟩) main_call0_v4) (broadcastInDim S4096x50000 ![0, 1] bcast_S4096x1_S4096x50000_0_1),
    TRef.binary (TRef.of (T := ⟨S4096x50000, .f32⟩) main_v11) (TRef.of (T := ⟨S4096x50000, .f32⟩) main_call0_v4) (TRef.of (T := ⟨S4096x50000, .f32⟩) main_call0_v5) subf,
    TRef.unary (TRef.of (T := ⟨S4096x50000, .f32⟩) main_call0_v5) (TRef.of (T := ⟨S4096x50000, .f32⟩) main_call0_v6) Host.exp,
    TRef.nullary (TRef.of (T := ⟨S_, .f32⟩) main_call0_cst_1) (constant S_ .f32 0x00000000#32),
    TRef.binary (TRef.of (T := ⟨S4096x50000, .f32⟩) main_call0_v6) (TRef.of (T := ⟨S_, .f32⟩) main_call0_cst_1) (TRef.of (T := ⟨S4096, .f32⟩) main_call0_v7) (fun x v => Host.reduceAdd x v reducesTo_S4096x50000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50000, .f32⟩) main_call0_v10) (broadcastInDim S4096x50000 ![0, 1] bcast_S4096x1_S4096x50000_0_1),
    TRef.binary (TRef.of (T := ⟨S4096x50000, .f32⟩) main_call0_v5) (TRef.of (T := ⟨S4096x50000, .f32⟩) main_call0_v10) (TRef.of (T := ⟨S4096x50000, .f32⟩) main_v12) subf ]

/-- @main's 31 operations, in order. -/
abbrev ops : List (HloOp τ sig (Elt F)) :=
  [ nullary main_c (constantI S_ 32 0#32),
    unary main_c main_v0 (broadcastInDim S4096x10 ![] bcast_S_S4096x10 : (⟨S_, .i32⟩ : BufTy).Contents (Elt F) → (⟨S4096x10, .i32⟩ : BufTy).Contents (Elt F)),
    binary main_arg0 main_v0 main_v1 (cmpi .slt : (⟨S4096x10, .i32⟩ : BufTy).Contents (Elt F) → (⟨S4096x10, .i32⟩ : BufTy).Contents (Elt F) → (⟨S4096x10, .i1⟩ : BufTy).Contents (Elt F)),
    nullary main_c_0 (constantI S_ 32 50000#32),
    unary main_c_0 main_v2 (broadcastInDim S4096x10 ![] bcast_S_S4096x10 : (⟨S_, .i32⟩ : BufTy).Contents (Elt F) → (⟨S4096x10, .i32⟩ : BufTy).Contents (Elt F)),
    binary main_arg0 main_v2 main_v3 (addi : (⟨S4096x10, .i32⟩ : BufTy).Contents (Elt F) → (⟨S4096x10, .i32⟩ : BufTy).Contents (Elt F) → (⟨S4096x10, .i32⟩ : BufTy).Contents (Elt F)),
    ternary main_v1 main_v3 main_arg0 main_v4 (select : (⟨S4096x10, .i1⟩ : BufTy).Contents (Elt F) → (⟨S4096x10, .i32⟩ : BufTy).Contents (Elt F) → (⟨S4096x10, .i32⟩ : BufTy).Contents (Elt F) → (⟨S4096x10, .i32⟩ : BufTy).Contents (Elt F)),
    unary main_v4 main_v5 (broadcastInDim S4096x10x1 ![0, 1] bcast_S4096x10_S4096x10x1_0_1 : (⟨S4096x10, .i32⟩ : BufTy).Contents (Elt F) → (⟨S4096x10x1, .i32⟩ : BufTy).Contents (Elt F)),
    binary main_arg1 main_v5 main_v6 ((fun x i => Host.gather gather_S50000x128_S4096x10x1_S4096x10x128_2_0_n_n_0_2_1128 x i) : (⟨S50000x128, .f32⟩ : BufTy).Contents (Elt F) → (⟨S4096x10x1, .i32⟩ : BufTy).Contents (Elt F) → (⟨S4096x10x128, .f32⟩ : BufTy).Contents (Elt F)),
    nullary main_cst (constant S_ .f32 0x00000000#32),
    binary main_v6 main_cst main_v7 ((fun x v => Host.reduceAdd x v reducesTo_S4096x10x128_S4096x128_d1 h_S_) : (⟨S4096x10x128, .f32⟩ : BufTy).Contents (Elt F) → (⟨S_, .f32⟩ : BufTy).Contents (Elt F) → (⟨S4096x128, .f32⟩ : BufTy).Contents (Elt F)),
    nullary main_cst_1 (constant S_ .f32 0x41200000#32),
    unary main_cst_1 main_v8 (broadcastInDim S4096x128 ![] bcast_S_S4096x128 : (⟨S_, .f32⟩ : BufTy).Contents (Elt F) → (⟨S4096x128, .f32⟩ : BufTy).Contents (Elt F)),
    binary main_v7 main_v8 main_v9 (Host.divf : (⟨S4096x128, .f32⟩ : BufTy).Contents (Elt F) → (⟨S4096x128, .f32⟩ : BufTy).Contents (Elt F) → (⟨S4096x128, .f32⟩ : BufTy).Contents (Elt F)),
    unary main_arg2 main_v10 ((transpose S128x50000 [1, 0] · transposes_S50000x128_S128x50000_1_0) : (⟨S50000x128, .f32⟩ : BufTy).Contents (Elt F) → (⟨S128x50000, .f32⟩ : BufTy).Contents (Elt F)),
    binary main_v9 main_v10 main_v11 ((fun l r => Host.dotGeneral dot_S4096x128_S128x50000_S4096x50000_1_0_0_1_n_n none l r) : (⟨S4096x128, .f32⟩ : BufTy).Contents (Elt F) → (⟨S128x50000, .f32⟩ : BufTy).Contents (Elt F) → (⟨S4096x50000, .f32⟩ : BufTy).Contents (Elt F)),
    TRef.nullary (TRef.of (T := ⟨S_, .f32⟩) main_call0_cst) (constant S_ .f32 0xFF800000#32),
    TRef.binary (TRef.of (T := ⟨S4096x50000, .f32⟩) main_v11) (TRef.of (T := ⟨S_, .f32⟩) main_call0_cst) (TRef.of (T := ⟨S4096, .f32⟩) main_call0_v0) (fun x v => Host.reduce FloatOps.maximumf x v reducesTo_S4096x50000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50000, .f32⟩) main_call0_v4) (broadcastInDim S4096x50000 ![0, 1] bcast_S4096x1_S4096x50000_0_1),
    TRef.binary (TRef.of (T := ⟨S4096x50000, .f32⟩) main_v11) (TRef.of (T := ⟨S4096x50000, .f32⟩) main_call0_v4) (TRef.of (T := ⟨S4096x50000, .f32⟩) main_call0_v5) subf,
    TRef.unary (TRef.of (T := ⟨S4096x50000, .f32⟩) main_call0_v5) (TRef.of (T := ⟨S4096x50000, .f32⟩) main_call0_v6) Host.exp,
    TRef.nullary (TRef.of (T := ⟨S_, .f32⟩) main_call0_cst_1) (constant S_ .f32 0x00000000#32),
    TRef.binary (TRef.of (T := ⟨S4096x50000, .f32⟩) main_call0_v6) (TRef.of (T := ⟨S_, .f32⟩) main_call0_cst_1) (TRef.of (T := ⟨S4096, .f32⟩) main_call0_v7) (fun x v => Host.reduceAdd x v reducesTo_S4096x50000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50000, .f32⟩) main_call0_v10) (broadcastInDim S4096x50000 ![0, 1] bcast_S4096x1_S4096x50000_0_1),
    TRef.binary (TRef.of (T := ⟨S4096x50000, .f32⟩) main_call0_v5) (TRef.of (T := ⟨S4096x50000, .f32⟩) main_call0_v10) (TRef.of (T := ⟨S4096x50000, .f32⟩) main_v12) subf ]

theorem ops_eq : (ops : List (HloOp τ sig (Elt F))) = opsA ++ opsB := rfl
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- After @main's own operations the logits' buffer holds the logits of the three arguments. -/
theorem after_opsA_v11 (V : Valuation τ sig (Elt F)) :
    after opsA V (Proc.devRef .tc main_v11)
      = val_main_v11 (F := F) (V (Proc.devRef .tc main_arg0)) (V (Proc.devRef .tc main_arg1)) (V (Proc.devRef .tc main_arg2)) := by
  after_results_simp
  rfl

/-- Contents carried to a typed reference's buffer and back are the contents. -/
theorem ofBuf_toBuf {T : BufTy} (x : TRef sig T) (v : T.Contents (Elt F)) : x.ofBuf (x.toBuf v) = v := by
  obtain ⟨ref, rfl, od, us⟩ := x
  rfl

/-- The called function's operations, run from any contents whose logits' buffer holds the logits, leave the result:
    the logits are taken by the hypothesis before the two sides are compared, so that the comparison unfolds the
    stages' definitions only. -/
theorem after_opsB_v12 (W : Valuation τ sig (Elt F)) (x0 : (⟨S4096x10, .i32⟩ : BufTy).Contents (Elt F)) (x1 x2 : (⟨S50000x128, .f32⟩ : BufTy).Contents (Elt F))
    (h11 : W (Proc.devRef .tc main_v11) = val_main_v11 (F := F) x0 x1 x2) :
    after opsB W (Proc.devRef .tc main_v12) = val_main_v12 (F := F) x0 x1 x2 := by
  after_results_simp
  simp only [ofBuf_toBuf]
  have e : (TRef.of (T := ⟨S4096x50000, .f32⟩) main_v11).ofBuf (W (Proc.devRef .tc main_v11)) = val_main_v11 (F := F) x0 x1 x2 := h11
  have key : ∀ v : (⟨S4096x50000, .f32⟩ : BufTy).Contents (Elt F), (TRef.of (T := ⟨S4096x50000, .f32⟩) main_v12).toBuf v = v := fun v => rfl
  rw [e, key]
  unfold val_main_v12 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0 val_main_call0_cst
  with_reducible rfl

/-- After all of @main's operations the result buffer holds the last stage of the three arguments. -/
theorem after_ops_v12 (V : Valuation τ sig (Elt F)) :
    after ops V (Proc.devRef .tc main_v12)
      = val_main_v12 (F := F) (V (Proc.devRef .tc main_arg0)) (V (Proc.devRef .tc main_arg1)) (V (Proc.devRef .tc main_arg2)) := by
  rw [ops_eq, after_append]
  exact after_opsB_v12 _ _ _ _ (after_opsA_v11 V)

set_option maxHeartbeats 2000000 in
/-- On every device, for any float values, from any memory with zero counters: every weakly fair execution of
    @main terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = val_main_v12 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (after_ops_v12 _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueP

end
-- ==== Proof.Val.Ref.lean ====
import proofs.«154023_j17042430230825_1_alg».proof.Proof.Val.RefReal
import proofs.«154023_j17042430230825_1_alg».proof.Proof.Val.RefRun
import Idealize.ShloMosaic.PureOps.Reduce

/-!
# The reference at an index

The reference computes, for each of the 4096 rows, the logits against the 50000 weight rows, their
maximum, and the logarithm of the sum of the exponentials of the logits less the maximum; its result at
row r and column j is the logit less the maximum less that logarithm.
-/

noncomputable section

namespace Cert.ReferenceIdeal.RefVal

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-- On every device, from any memory with zero counters: every weakly fair execution of the reference terminates with the
    result buffer at the last stage of the three arguments' launch contents, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.ValueP.run (F := Ideal) m ρ

section Apply

variable (x0 : (⟨S4096x10, .i32⟩ : BufTy).Contents (Elt Ideal)) (x1 x2 : (⟨S50000x128, .f32⟩ : BufTy).Contents (Elt Ideal))

/-- the maximum of row r's logits, taken from −∞ twice as the reference does -/
def rowMax (r : Fin 4096) : EReal :=
  max ⊥ ((Finset.univ : Finset (Fin 50000)).fold max (⊥ : EReal) (fun k => lg x0 x1 x2 r k))

/-- the pattern 0xFF800000 denotes −∞ -/
theorem ofBits_neg_inf : Ideal.ofBits .f32 0xFF800000#32 = (⊥ : EReal) := by
  simp [Ideal.ofBits, Ideal.ieee]

/-- the product stage at (r, j) is the logit -/
theorem logits_apply (r : Fin 4096) (j : Fin 50000) :
    val_main_v11 (F := Ideal) x0 x1 x2 (ix2 r j) = lg x0 x1 x2 r j := by
  rw [val_main_v11_apply]
  unfold lg
  refine Finset.sum_congr rfl fun k _ => ?_
  rw [val_main_v10_apply]
  have el : lidx_main_v11 (ix2 r j) k = ix2 r k :=
    funext fun a => Fin.ext (by match a with | ⟨0, _⟩ => rfl | ⟨1, _⟩ => rfl)
  have er : idx_main_v10 (ridx_main_v11 (ix2 r j) k) = ix2 j k :=
    funext fun a => Fin.ext (by match a with | ⟨0, _⟩ => rfl | ⟨1, _⟩ => rfl)
  rw [el, er]

/-- row r of the logits with column k put back is (r, k) -/
theorem lift_row (h : S4096x50000.Reduces [1] S4096) (r : Fin 4096) (k : Fin 50000) :
    h.lift (ix1 r) k = ix2 r k := by
  funext c; apply Fin.ext
  match c with
  | ⟨0, _⟩ => rfl
  | ⟨1, _⟩ => rfl

/-- the maximum-reduce stage at row r is the fold of max over the row's logits from −∞ -/
theorem reduceMax_apply (r : Fin 4096) :
    val_main_call0_v0 (F := Ideal) x0 x1 x2 (ix1 r)
      = (Finset.univ : Finset (Fin 50000)).fold max (⊥ : EReal) (fun k => lg x0 x1 x2 r k) := by
  unfold val_main_call0_v0
  have h : S4096x50000.Reduces [1] S4096 := by decide
  rw [Host.reduce_eq_fold_single FloatOps.maximumf _ _ reducesTo_S4096x50000_S4096_d1 h h_S_]
  have hi : val_main_call0_cst (F := Ideal) (Shape.Idx.first h_S_) = (⊥ : EReal) := ofBits_neg_inf
  rw [hi]
  exact Finset.fold_congr fun k _ => by
    show val_main_v11 (F := Ideal) x0 x1 x2 (h.lift (ix1 r) k) = lg x0 x1 x2 r k
    exact (congrArg (val_main_v11 (F := Ideal) x0 x1 x2) (lift_row h r k)).trans (logits_apply x0 x1 x2 r k)

/-- the broadcast maximum at (r, j) is the row's maximum -/
theorem max_apply (r : Fin 4096) (j : Fin 50000) :
    val_main_call0_v4 (F := Ideal) x0 x1 x2 (ix2 r j) = rowMax x0 x1 x2 r := by
  rw [val_main_call0_v4_apply, val_main_call0_v3_apply, val_main_call0_v2_apply, val_main_call0_v1_apply, val_main_call0_cst_0_apply]
  have ei : idx_main_call0_v3 (idx_main_call0_v4 (ix2 r j)) = ix1 r :=
    funext fun a => Fin.ext (by match a with | ⟨0, _⟩ => rfl)
  rw [ei, reduceMax_apply, Ideal.maximumf_def, Ideal.ofBits_def, ofBits_neg_inf]
  rfl

/-- the shifted logits at (r, j) -/
theorem shifted_apply (r : Fin 4096) (j : Fin 50000) :
    val_main_call0_v5 (F := Ideal) x0 x1 x2 (ix2 r j) = lg x0 x1 x2 r j - rowMax x0 x1 x2 r := by
  rw [val_main_call0_v5_apply, logits_apply, max_apply, Ideal.subf_def]

/-- the broadcast logarithm of the row's sum of exponentials at (r, j) -/
theorem logSum_apply (r : Fin 4096) (j : Fin 50000) :
    val_main_call0_v10 (F := Ideal) x0 x1 x2 (ix2 r j)
      = Ideal.log (0 + ∑ k : Fin 50000, Ideal.exp (lg x0 x1 x2 r k - rowMax x0 x1 x2 r)) := by
  rw [val_main_call0_v10_apply, val_main_call0_v9_apply, val_main_call0_v8_apply, val_main_call0_v7_apply, val_main_call0_cst_1_apply,
    Ideal.hostUnary_log_def, Ideal.ofBits_def, Ideal.ofBits_zero_f32]
  refine congrArg Ideal.log (congrArg (0 + ·) (Finset.sum_congr rfl fun k _ => ?_))
  have ek : idx_main_call0_v7 (idx_main_call0_v8 (idx_main_call0_v10 (ix2 r j))) k = ix2 r k :=
    funext fun a => Fin.ext (by match a with | ⟨0, _⟩ => rfl | ⟨1, _⟩ => rfl)
  rw [ek, val_main_call0_v6_apply, shifted_apply, Ideal.hostUnary_exp_def]

/-- The reference's result at row r and column j: the logit less the row's maximum, less the logarithm of the row's
    sum of exponentials of the logits less the maximum. -/
theorem ref_apply (r : Fin 4096) (j : Fin 50000) :
    val_main_v12 (F := Ideal) x0 x1 x2 (ix2 r j)
      = (lg x0 x1 x2 r j - max ⊥ ((Finset.univ : Finset (Fin 50000)).fold max (⊥ : EReal) (fun k => lg x0 x1 x2 r k)))
        - Ideal.log (0 + ∑ k : Fin 50000, Ideal.exp (lg x0 x1 x2 r k - max ⊥ ((Finset.univ : Finset (Fin 50000)).fold max (⊥ : EReal) (fun k => lg x0 x1 x2 r k)))) := by
  rw [val_main_v12_apply, shifted_apply, logSum_apply, Ideal.subf_def]
  rfl

end Apply

end Cert.ReferenceIdeal.RefVal

end
-- ==== Proof.Val.Kernel.lean ====
import proofs.«154023_j17042430230825_1_alg».proof.Defs
import proofs.«154023_j17042430230825_1_alg».proof.Proof.KI.Frame
import proofs.«154023_j17042430230825_1_alg».proof.Proof.Val.Host
import proofs.«154023_j17042430230825_1_alg».proof.Proof.Val.Arr0
import proofs.«154023_j17042430230825_1_alg».proof.Proof.Val.Scratch
import proofs.«154023_j17042430230825_1_alg».proof.Proof.Val.Logit
import proofs.«154023_j17042430230825_1_alg».proof.Proof.Val.Finite
import proofs.«154023_j17042430230825_1_alg».proof.Proof.Val.Ref
import proofs.«154023_j17042430230825_1_alg».proof.Proof.Gen.Pre_finite_inputs

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The result both programs end with: the reference's own result stage, log_softmax(pooled · Wᵀ), of the kernel's argument arrays. -/
def result (c : Dev nD) : Buf (Elt Ideal) ((c.tc : Thread nD τ).loc main_v13) :=
  Cert.ReferenceIdeal.ReadP.val_main_v12 (F := Ideal) (m ((c.tc : Thread nD τ).loc main_arg0)) (m ((c.tc : Thread nD τ).loc main_arg1)) (m ((c.tc : Thread nD τ).loc main_arg2))

/-- THE KERNEL'S VALUE. Entry (r, j) of the sliced output is logit(r, j) − lse(r): the second launch's tile j / 512 at column
    j % 512, over the first launch's per-row lse = m + log l after the last tile; the running pair is the maximum and the
    rescaled sum of the row's real logits, so this is the reference's (logit − max) − log Σ exp(logit − max). -/
theorem kernel_value (hpre : Cert.Pre_KernelIdeal (hPre_finite_inputs := Cert.Pre_finite_inputs.Gen.facts) m) (c : Dev nD) :
    W5 (F := Ideal) m ρ c (Proc.devRef .tc main_v13) = result m c := by
  obtain ⟨h1, h2⟩ := Cert.Finite.real_of_pre _ _ _ (hpre c)
  funext i
  obtain ⟨r, j, rfl⟩ : ∃ (r : Fin 4096) (j : Fin 50000), i = ix2 r j := ⟨i 0, i 1, eq_ix2 i⟩
  -- the slice, then the second launch's array, then its payload at (r, j % 512) of tile j / 512
  rw [w5_out m ρ c r j, arr1_out (V3 (F := Ideal) m ρ) c]
  show k1_pay1 (F := Ideal) (a9 (V3 (F := Ideal) m ρ) c) (wblk (V3 (F := Ideal) m ρ) c (j.val / 512)) (a11 (V3 (F := Ideal) m ρ) c)
      (ix2 r ⟨j.val % 512, Nat.mod_lt _ (by norm_num)⟩) = _
  rw [pay1_1_apply]
  -- the arrays the second launch reads are what the first launch was entered with, but for the lse array
  have e9 : a9 (V3 (F := Ideal) m ρ) c = a9 (V2 (F := Ideal) m ρ) c := v3_v9 m ρ c
  have e10 : wblk (V3 (F := Ideal) m ρ) c = wblk (V2 (F := Ideal) m ρ) c := by
    funext n y; unfold wblk a10; rw [v3_v10 m ρ c]
  have hA9 := v2_pooled m ρ c
  have hA10 := v2_wpad m ρ c
  -- every tile's logits are the reference's logits of the row
  have hlog : ∀ (n : ℕ) (q : Fin 512) (h : 512 * n + q.val < 50000),
      logitT (a9 (V2 (F := Ideal) m ρ) c) (wblk (V2 (F := Ideal) m ρ) c n) r q
        = Cert.ReferenceIdeal.RefVal.lg (m ((c.tc : Thread nD τ).loc main_arg0)) (m ((c.tc : Thread nD τ).loc main_arg1)) (m ((c.tc : Thread nD τ).loc main_arg2)) r ⟨512 * n + q.val, h⟩ :=
    fun n q h => logit_tile (a9 (V2 (F := Ideal) m ρ) c) (a10 (V2 (F := Ideal) m ρ) c) _ _ _ hA9 hA10 r n q h
  have hj : 512 * (j.val / 512) + (⟨j.val % 512, Nat.mod_lt _ (by norm_num)⟩ : Fin 512).val < 50000 := by
    show 512 * (j.val / 512) + j.val % 512 < 50000
    rw [Nat.div_add_mod]; exact j.isLt
  rw [e9, e10, hlog (j.val / 512) ⟨j.val % 512, Nat.mod_lt _ (by norm_num)⟩ hj]
  have ej : (⟨512 * (j.val / 512) + (⟨j.val % 512, Nat.mod_lt _ (by norm_num)⟩ : Fin 512).val, hj⟩ : Fin 50000) = j :=
    Fin.ext (Nat.div_add_mod _ _)
  rw [ej]
  -- the lse array is what the first launch's last point stored
  have hlse : a11 (V3 (F := Ideal) m ρ) c = (outsAt0 (V2 (F := Ideal) m ρ) c 97 last_lt0).1 :=
    (v3_lse m ρ c).trans (arr0_lse (V2 (F := Ideal) m ρ) c)
  rw [hlse]
  -- per row: the running pair over the 98 tiles gives the reference's max and log-sum
  rw [lse_row (V2 (F := Ideal) m ρ) c r
    (fun k => Cert.ReferenceIdeal.RefVal.lg (m ((c.tc : Thread nD τ).loc main_arg0)) (m ((c.tc : Thread nD τ).loc main_arg1)) (m ((c.tc : Thread nD τ).loc main_arg2)) r k)
    (fun k => Cert.ReferenceIdeal.RefVal.lg_real _ _ _ h1 h2 r k)
    (fun t q h => by rw [blk0_0 (V2 (F := Ideal) m ρ) c t, blk0_1 (V2 (F := Ideal) m ρ) c t]; exact hlog t.val q h)
    last_lt0 j]
  unfold result
  rw [Cert.ReferenceIdeal.RefVal.ref_apply]

/-- The kernel's run with its result named: the sliced output at the common result, the arguments as launched. -/
theorem run_value (hpre : Cert.Pre_KernelIdeal (hPre_finite_inputs := Cert.Pre_finite_inputs.Gen.facts) m) :
    θ_run (Cert.KernelIdeal.defs (F := Ideal)) (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v13 (by decide))).trans (kernel_value m ρ hpre c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Val

end
-- ==== Proof.lean ====
/- The certificate's claims assembled.

   The kernel computes log_softmax(pooled · Wᵀ) over a vocabulary of 50000 columns in 98 tiles of 512 columns (the weight
   matrix padded with 176 zero rows): a first launch keeps, per row, a running maximum m and a running sum l of
   exp(logit − m) over the tiles — the padded columns masked to −∞, which is what the named constant "neg_big" denotes —
   and leaves lse = m + log l; a second launch writes logit − lse tile by tile; the host slices the 50000 columns out.
   Frames: each launch's body is run once per control case of its two conditionals (first tile, middle tile, last tile),
   the two running stores carried in the launch's invariant from tile to tile. Values: per row the running pair after
   tile n is the maximum and the rescaled sum over the first 512(n+1) columns, so after the last tile lse is the
   reference's max + log Σ exp(logit − max) and the results agree entry by entry; finiteness of the inputs makes every
   logit a real number, which the rescaling law exp(a − b) · Σ exp(x − a) = Σ exp(x − b) needs. -/
import proofs.«154023_j17042430230825_1_alg».proof.Defs
import proofs.«154023_j17042430230825_1_alg».proof.Proof.Gen.Kernel
import proofs.«154023_j17042430230825_1_alg».proof.Proof.Gen.KernelIdeal
import proofs.«154023_j17042430230825_1_alg».proof.Proof.Gen.ReferenceIdeal
import proofs.«154023_j17042430230825_1_alg».proof.Proof.Gen.Pre_finite_inputs
import proofs.«154023_j17042430230825_1_alg».proof.Proof.K.Frame
import proofs.«154023_j17042430230825_1_alg».proof.Proof.KI.Frame
import proofs.«154023_j17042430230825_1_alg».proof.Proof.Val.Kernel
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.ref_run m ρ)

/-- The one rewrite of the idealization: the mask fill is named −∞. -/
theorem preserves : Cert.preserves_Kernel_KernelIdeal :=
  IdealRules.named_const.statement Cert.KernelIdeal.κ "neg_big" .f32 0xFF333332#32 ⊥ rfl

/-- Both programs end, from memories agreeing on the arguments, with the reference's own result term. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Val.result m c, Cert.KernelIdeal.Val.run_value m ρ hpre, ?_⟩
  refine (θ_run Cert.ReferenceIdeal.defs _ _).mono (fun _ h c => ⟨(h c).1.trans ?_, (h c).2⟩) (Cert.ReferenceIdeal.RefVal.ref_run m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
